-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x32000 .f32) (main_arg1 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 1 := constantI S_ 1 1#1
  let main_v6 : IVec S_ 1 := (fun x v => Host.reduce IntOp.andi x v reducesTo_S4096_S_d0 h_S_) main_v5 main_c_1
  let main_v7 : IVec S_ 1 := andi main_v3 main_v6
  let main_c_2 : IVec S_ 32 := constantI S_ 32 32000#32
  let main_v8 : IVec S4096 32 := broadcastInDim S4096 ![] bcast_S_S4096 main_c_2
  let main_v9 : IVec S4096 1 := cmpi .slt main_arg1 main_v8
  let main_c_3 : IVec S_ 1 := constantI S_ 1 1#1
  let main_v10 : IVec S_ 1 := (fun x v => Host.reduce IntOp.andi x v reducesTo_S4096_S_d0 h_S_) main_v9 main_c_3
  let main_v11 : IVec S_ 1 := andi main_v7 main_v10
  main_v11
-- ==== Kernel.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S64x32000 : Shape := ⟨2, ![64, 32000]⟩
abbrev S64x1 : Shape := ⟨2, ![64, 1]⟩
abbrev S64 : Shape := ⟨1, ![64]⟩

abbrev nBuf : Space → Nat
  | .hbm => 16
  | .vmem => 6
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S4096, .i32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S4096x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S64x32000, .f32⟩
  | .local _ .vmem, ⟨1, _⟩ => ⟨S64x32000, .f32⟩
  | .local _ .vmem, ⟨2, _⟩ => ⟨S64x1, .i32⟩
  | .local _ .vmem, ⟨3, _⟩ => ⟨S64x1, .i32⟩
  | .local _ .vmem, ⟨4, _⟩ => ⟨S64x1, .f32⟩
  | .local _ .vmem, ⟨5, _⟩ => ⟨S64x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S4096 : S_.BroadcastsInDim S4096 (![] : Fin 0 → Fin S4096.rank)
  shapeCasts_S4096_S4096x1 : S4096.ShapeCasts S4096x1
  inb_S64x32000_S64x32000_0_0 : ∀ a, (![0, 0] : Fin 2 → Nat) a + S64x32000.size a ≤ S64x32000.size a
  h_S64x32000 : 0 < S64x32000.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S64x32000_d1_w32 : S64x32000.Iotas .tc 32 [1]
  broadcasts_S64x1_S64x32000 : S64x1.Broadcasts S64x32000
  natLt_1_32 : 1 < 32
  reduces_S64x32000_S64 : S64x32000.Reduces [1] S64
  shapeCasts_S64_S64x1 : S64.ShapeCasts S64x1
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32000.size a ≤ S4096x32000.size a
  hwx0_0 : ∀ i : grid0.Coords, EltTy.bits .f32 = 32 ∨ (Rect.block (s := S4096x32000) S64x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S4096x1.size a
  hwx0_1 : ∀ i : grid0.Coords, EltTy.bits .i32 = 32 ∨ (Rect.block (s := S4096x1) S64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S4096x1.size a
  hwx0_2 : ∀ i : grid0.Coords, EltTy.bits .f32 = 32 ∨ (Rect.block (s := S4096x1) S64x1.size (cc0_transform_2 i) (hinb0_2 i)).WholeWords (EltTy.packing .f32)

variable [Facts₀]

abbrev win0_0 : Pipeline.Window sig grid0 :=
  Pipeline.Window.ofSpec (Memref.whole main_arg0) S64x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x2 : Shape := ⟨2, ![4096, 2]⟩

abbrev nBuf : Space → Nat
  | .hbm => 64
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096, .i32⟩
  | .hbm, ⟨3, _⟩ => ⟨S_, .f32⟩
  | .hbm, ⟨4, _⟩ => ⟨S4096x32000, .f32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S4096x1, .i32⟩
  | .hbm, ⟨21, _⟩ => ⟨S4096x2, .i32⟩
  | .hbm, ⟨22, _⟩ => ⟨S_, .f32⟩
  | .hbm, ⟨23, _⟩ => ⟨S4096, .f32⟩
  | .hbm, ⟨24, _⟩ => ⟨S4096x32000, .f32⟩
  | .hbm, ⟨25, _⟩ => ⟨S4096x32000, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S4096x1, .f32⟩
  | .hbm, ⟨32, _⟩ => ⟨S4096x32000, .f32⟩
  | .hbm, ⟨33, _⟩ => ⟨S4096x32000, .f32⟩
  | .hbm, ⟨34, _⟩ => ⟨S4096x32000, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1, .f32⟩
  | .hbm, ⟨39, _⟩ => ⟨S4096x32000, .f32⟩
  | .hbm, ⟨40, _⟩ => ⟨S4096x32000, .f32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S4096x1, .i32⟩
  | .hbm, ⟨56, _⟩ => ⟨S4096x1, .i32⟩
  | .hbm, ⟨57, _⟩ => ⟨S4096x2, .i32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_call0_cst_0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_cst_1 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_c_7 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_cst_9 : Ref sig .tc := ⟨.hbm, 62, rfl⟩
abbrev main_v35 : Ref sig .tc := ⟨.hbm, 63, rfl⟩

abbrev nD : Nat := 1
abbrev τ : Topo := Topo.v7x

variable {F : FTy → Type} [FloatOps F]

class Facts₀ : Prop where
  bcast_S_S4096x32000 : S_.BroadcastsInDim S4096x32000 (![] : Fin 0 → Fin S4096x32000.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  reducesTo_S4096x32000_S4096_d1 : S4096x32000.ReducesTo [1] S4096
  h_S_ : 0 < S_.numel
  bcast_S4096x1_S4096x32000_0_1 : S4096x1.BroadcastsInDim S4096x32000 (![0, 1] : Fin 2 → Fin S4096x32000.rank)
  reducesTo_S4096_S_d0 : S4096.ReducesTo [0] S_
  scatter_S4096x32000_S4096x2_S4096_n_01_01_1_wf : ScatterDims.WF S4096x32000 S4096x2 S4096 [] [0, 1] [0, 1] 1
  gather_S4096x32000_S4096x2_S4096_n_01_n_n_01_1_11_wf : GatherDims.WF S4096x32000 S4096x2 S4096 [] [0, 1] [] [0, 1] [] 1 ![1, 1]

variable [Facts₀]

def scatter_S4096x32000_S4096x2_S4096_n_01_01_1 : ScatterDims S4096x32000 S4096x2 S4096 where
  updateWindowDims := []
  insertedWindowDims := [0, 1]
  scatterDimsToOperandDims := [0, 1]
  indexVectorDim := 1
  wf := scatter_S4096x32000_S4096x2_S4096_n_01_01_1_wf
def gather_S4096x32000_S4096x2_S4096_n_01_n_n_01_1_11 : GatherDims S4096x32000 S4096x2 S4096 where
  offsetDims := []
  collapsedSliceDims := [0, 1]
  operandBatchingDims := []
  startIndicesBatchingDims := []
  startIndexMap := [0, 1]
  indexVectorDim := 1
  sliceSizes := ![1, 1]
  wf := gather_S4096x32000_S4096x2_S4096_n_01_n_n_01_1_11_wf

class Facts : Prop extends Facts₀ where

variable [Facts]
-- ==== Proof.Spec.lean ====
/-
  The loss one row contributes, as a function on the extended reals.

  A row `r` of 32000 logits and a target column `k`: the target logit is scaled by 4 and every other logit by 1
  (`scaled`); the row's maximum `rowMax` is the fold of `max` from `-∞` over the scaled logits; `rowSumExp` is the sum
  of the exponentials of the scaled logits shifted by that maximum; and the row's loss is the log-sum-exp of the scaled
  logits, `rowMax + log rowSumExp`, minus the scaled target logit `4 · r k`.  The mean of the 4096 row losses is the
  cross-entropy of the scaled logits against the targets.

  Also here: the binary32 literals the programs and the precondition spell (1, 3, 4, -∞ and +∞) as extended reals.
-/
import Idealize.ShloMosaic.PureOps.Ideal
import Idealize.ShloMosaic.PureOps.Ideal.Laws

noncomputable section

namespace Cert.Ems

open Idealize.ShloMosaic

/-- The factor on column `j` of a row whose target column is `k`: 4 on the target, 1 elsewhere. -/
def factor (k : ℕ) (j : Fin 32000) : EReal := if j.val = k then 4 else 1

/-- The row with its target logit scaled by 4. -/
def scaled (r : Fin 32000 → EReal) (k : ℕ) (j : Fin 32000) : EReal := r j * factor k j

/-- The maximum of the scaled row: the fold of `max` from `-∞`. -/
def rowMax (r : Fin 32000 → EReal) (k : ℕ) : EReal :=
  (Finset.univ : Finset (Fin 32000)).fold max ⊥ (scaled r k)

/-- The sum over the row of the exponentials of the scaled logits less the row's maximum. -/
def rowSumExp (r : Fin 32000 → EReal) (k : ℕ) : EReal :=
  ∑ j : Fin 32000, Ideal.exp (scaled r k j - rowMax r k)

/-- The row's loss: log-sum-exp of the scaled logits less the scaled target logit. -/
def rowLoss (r : Fin 32000 → EReal) (k : Fin 32000) : EReal :=
  (rowMax r k.val + Ideal.log (rowSumExp r k.val)) - 4 * r k

/-! ## The literals -/

theorem ofBits_one : Ideal.ofBits .f32 0x3F800000#32 = 1 := by
  simp [Ideal.ofBits, Ideal.ieee, -EReal.coe_mul]; norm_num
theorem ofBits_three : Ideal.ofBits .f32 0x40400000#32 = 3 := by
  simp [Ideal.ofBits, Ideal.ieee, -EReal.coe_mul]; norm_num; first | rfl | norm_cast
theorem ofBits_four : Ideal.ofBits .f32 0x40800000#32 = 4 := by
  simp [Ideal.ofBits, Ideal.ieee, -EReal.coe_mul]; norm_num; first | rfl | norm_cast
theorem ofBits_neg_inf : Ideal.ofBits .f32 0xFF800000#32 = ⊥ := by
  simp [Ideal.ofBits, Ideal.ieee]
theorem ofBits_pos_inf : Ideal.ofBits .f32 0x7F800000#32 = ⊤ := by
  simp [Ideal.ofBits, Ideal.ieee]

end Cert.Ems

end
-- ==== Proof.PreDecode.lean ====
/-
  What the precondition says of the two argument arrays.

  The printed precondition is the conjunction of three `all`s: every logit's absolute value is below +∞, every target
  word is at least 0 read signed, and every target word is below 32000 read signed.  Decoded here at one element: a
  logit is neither +∞ nor -∞, and a target word, read unsigned, is below 32000 (a 32-bit word in [0, 32000) signed
  has its sign bit clear, so both readings agree).
-/
import proofs.«427003_j5763846111461_3_alg».proof.Pre_finite_inputs
import proofs.«427003_j5763846111461_3_alg».proof.Proof.Spec
import Idealize.ShloMosaic.Lib.ReduceAll
import Idealize.ShloMosaic.Lib.Affine
import Idealize.ShloMosaic.PureOps.Ideal.Laws

noncomputable section

namespace Cert.Ems.PreDecode

open Idealize.ShloMosaic Cert.Pre_finite_inputs

instance : Subsingleton S_.Idx := ⟨fun a b => funext fun d => d.elim0⟩

theorem ofBool_eq_one (b : Bool) : BitVec.ofBool b = 1#1 ↔ b = true := by cases b <;> decide

/-- A word in [0, n) read signed is below n read unsigned. -/
theorem toNat_lt (w : BitVec 32) (n : Nat) (hn : n < 2 ^ 31) (h0 : IntOp.cmpi .sge w (0#32) = 1#1)
    (h1 : IntOp.cmpi .slt w (BitVec.ofNat 32 n) = 1#1) : w.toNat < n := by
  unfold IntOp.cmpi at h0 h1
  rw [ofBool_eq_one] at h0 h1
  simp only [BitVec.slt, BitVec.sle, decide_eq_true_eq] at h0 h1
  have h32 := w.isLt
  unfold BitVec.toInt at h0 h1
  split at h1 <;> simp at h0 h1 <;> omega

/-- An extended real whose absolute value is below +∞ is neither infinity. -/
theorem finite_of_abs_lt (a : EReal) (h : Ideal.cmp .olt (max a (-a)) ⊤ = 1#1) : a ≠ ⊤ ∧ a ≠ ⊥ := by
  unfold Ideal.cmp at h
  rw [ofBool_eq_one] at h
  simp only [decide_eq_true_eq] at h
  constructor
  · rintro rfl; simp at h
  · rintro rfl; simp at h

variable [Cert.Pre_finite_inputs.Facts]

/-- THE PRECONDITION DECODED: every logit is finite and every target word is below 32000. -/
theorem decode (x : FVec Ideal S4096x32000 .f32) (t : IVec S4096 32)
    (h : Cert.Pre_finite_inputs.fn (F := Ideal) x t = fun _ => 1#1) :
    (∀ i : S4096x32000.Idx, x i ≠ ⊤ ∧ x i ≠ ⊥) ∧ (∀ i : S4096.Idx, (t i).toNat < 32000) := by
  have e := congrFun h (fun a => a.elim0)
  dsimp only [Cert.Pre_finite_inputs.fn] at e
  obtain ⟨e12, e3⟩ := IntOp.andi_eq_one.1 e
  obtain ⟨e1, e2⟩ := IntOp.andi_eq_one.1 e12
  refine ⟨fun i => ?_, fun i => ?_⟩
  · have := Host.reduce_andi_all _ _ _ _ _ e1 i
    refine finite_of_abs_lt (x i) ?_
    have hc : (constant (F := Ideal) S_ .f32 0x7F800000#32) = fun _ => (⊤ : EReal) := by
      funext j; exact Cert.Ems.ofBits_pos_inf
    simpa [cmpf, Host.absf, broadcastInDim, hc, Ideal.cmpf_def, Ideal.absf_def] using this
  · have h0 := Host.reduce_andi_all _ _ _ _ _ e2 i
    have h1 := Host.reduce_andi_all _ _ _ _ _ e3 i
    exact toNat_lt (t i) 32000 (by decide) h0 h1

end Cert.Ems.PreDecode

end
-- ==== Proof.KernelRow.lean ====
/-
  One row of the kernel's block, read on the extended reals.

  The kernel body takes a block of 64 rows of 32000 logits and a column of 64 target words. It builds the mask
  `mask[p, j] = 1` where the column number `j` equals row `p`'s target word and `0` elsewhere, and stores for row `p`
  `(rowmax + log (∑ⱼ exp (s[p, j] - rowmax))) - 4 · ∑ⱼ x[p, j] · mask[p, j]` with `s[p, j] = x[p, j] · (1 + 3 · mask[p, j])`.

  When row `p`'s target word names a column `k < 32000`: the mask on row `p` is the indicator of `k`, so `1 + 3 · mask` is
  the factor (4 on the target, 1 elsewhere), `s[p, ·]` is the scaled row, the masked sum has one nonzero term and is
  the target logit, and the stored value is the row's loss (`pay_row`). No finiteness of the logits is used:
  `x · 0 = 0` and `x · 1 = x` hold for every extended real.

  The steps: the reductions along the columns followed by the cast that keeps the reduced axis as a unit axis, read at
  `(p, 0)`, are the sum and the fold of `max` over the row's columns (`rowSum_apply`, `rowMax_apply`); a column
  broadcast along the rows reads its row's entry (`col_apply`); the compare bit widened and converted is 0 or 1
  (`bit_value`, `mask_apply`); then the arithmetic over any mask vector that is such an indicator (`scaled_apply`,
  `target_sum`, `body_row`).
-/
import proofs.«427003_j5763846111461_3_alg».proof.Proof.Gen.KernelIdeal.Skeleton
import proofs.«427003_j5763846111461_3_alg».proof.Proof.Spec
import Idealize.ShloMosaic.Lib.ValueIdx
import Idealize.ShloMosaic.Lib.Pipeline.Value
import Idealize.ShloMosaic.PureOps.Ideal.Laws

noncomputable section
namespace Cert.Ems.KernelRow
open Idealize.ShloMosaic Idealize.ShloMosaic.ValueIdx Cert.KernelIdeal

/-- The index over row `p` of the reduced shape with column `j` inserted is `(p, j)`. -/
theorem lift_ix (h : S64x32000.Reduces [1] S64) (p : Fin 64) (j : Fin 32000) :
    h.lift (ix1 p) j = ix2 p j := by
  funext a
  match a with
  | ⟨0, _⟩ => exact Fin.ext rfl
  | ⟨1, _⟩ => exact Fin.ext rfl

/-- The sum along the columns, kept as a one-column array, at `(p, 0)`: the sum over row `p`'s columns. -/
theorem rowSum_apply (src : FVec Ideal S64x32000 .f32) (acc : BitVec FTy.f32.bits) (h : S64x32000.Reduces [1] S64)
    (hφ : FKind.Formats .f32) (hacc : acc = FKind.add.neutral .f32 hφ) (hc : S64.ShapeCasts S64x1) (p : Fin 64) :
    shapeCast S64x1 (multiReduction (F := Ideal) .add [1] S64 src acc h hφ hacc) hc (ix2 p (0 : Fin 1))
      = ∑ j : Fin 32000, src (ix2 p j) := by
  refine (shapeCast_apply _ hc (ix2 p (0 : Fin 1)) (ix1 p) ?_).trans ?_
  · rw [Shape.rowMajor_val_two, Shape.rowMajor_val_one]
    show p.val = p.val * 1 + 0
    omega
  · refine (Ideal.multiReduction_add_single src acc h hφ hacc (ix1 p)).trans ?_
    exact Finset.sum_congr rfl fun j _ => congrArg src (lift_ix h p j)

/-- The maximum along the columns, kept as a one-column array, at `(p, 0)`: the fold of `max` from the
    accumulator's value over row `p`'s columns. -/
theorem rowMax_apply (src : FVec Ideal S64x32000 .f32) (acc : BitVec FTy.f32.bits) (h : S64x32000.Reduces [1] S64)
    (hφ : FKind.Formats .f32) (hacc : acc = FKind.maximumf.neutral .f32 hφ) (hc : S64.ShapeCasts S64x1) (p : Fin 64) :
    shapeCast S64x1 (multiReduction (F := Ideal) .maximumf [1] S64 src acc h hφ hacc) hc (ix2 p (0 : Fin 1))
      = (Finset.univ : Finset (Fin 32000)).fold max (Ideal.ofBits .f32 acc) (fun j => src (ix2 p j)) := by
  refine (shapeCast_apply _ hc (ix2 p (0 : Fin 1)) (ix1 p) ?_).trans ?_
  · rw [Shape.rowMajor_val_two, Shape.rowMajor_val_one]
    show p.val = p.val * 1 + 0
    omega
  · refine (Ideal.multiReduction_maximumf_single src acc h hφ hacc (ix1 p)).trans ?_
    exact congrArg (fun f => (Finset.univ : Finset (Fin 32000)).fold max (Ideal.ofBits .f32 acc) f)
      (funext fun j => congrArg src (lift_ix h p j))

/-- A one-column array broadcast along the rows reads, at `(p, j)`, its entry of row `p`. -/
theorem col_apply {α : Type} (v : S64x1.Idx → α) (hb : S64x1.Broadcasts S64x32000) (p : Fin 64) (j : Fin 32000) :
    broadcastTo S64x32000 v hb (ix2 p j) = v (ix2 p (0 : Fin 1)) := by
  refine broadcastTo_apply v hb (ix2 p j) (ix2 p (0 : Fin 1)) fun a => ?_
  match a with
  | ⟨0, _⟩ => rfl
  | ⟨1, _⟩ => rfl

/-- The compare bit of column `j` against the word `w`, widened and read as a number: 1 when `j` is the value of `w`, else 0. -/
theorem bit_value (j : Fin 32000) (w : BitVec 32) :
    (FloatOps.sitofp (F := Ideal) .f32 ((IntOp.cmpi .eq (BitVec.ofNat 32 j.val) w).setWidth 32) : EReal)
      = if j.val = w.toNat then 1 else 0 := by
  show ((((IntOp.cmpi .eq (BitVec.ofNat 32 j.val) w).setWidth 32).toInt : ℝ) : EReal) = _
  by_cases h : j.val = w.toNat
  · have e : BitVec.ofNat 32 j.val = w := by
      apply BitVec.eq_of_toNat_eq
      rw [BitVec.toNat_ofNat, ← h]
      exact Nat.mod_eq_of_lt (by have := j.isLt; omega)
    have hb : IntOp.cmpi .eq (BitVec.ofNat 32 j.val) w = 1#1 := by simp [IntOp.cmpi, e]
    rw [hb, if_pos h, show ((1#1 : BitVec 1).setWidth 32).toInt = 1 from by decide]
    simp
  · have e : ¬ BitVec.ofNat 32 j.val = w := by
      intro e
      apply h
      rw [← e, BitVec.toNat_ofNat]
      exact (Nat.mod_eq_of_lt (by have := j.isLt; omega)).symm
    have hb : IntOp.cmpi .eq (BitVec.ofNat 32 j.val) w = 0#1 := by
      show BitVec.ofBool (BitVec.ofNat 32 j.val == w) = 0#1
      rw [beq_eq_false_iff_ne.2 e]; rfl
    rw [hb, if_neg h, show ((0#1 : BitVec 1).setWidth 32).toInt = 0 from by decide]
    simp

/-- The mask at `(p, j)`: 1 on the column the row's target word names, 0 elsewhere. -/
theorem mask_apply (x1 : Vec Ideal S64x1 .i32) (hi : S64x32000.Iotas .tc 32 [1]) (hs : S64x1.ShapeCasts S64x1)
    (hb : S64x1.Broadcasts S64x32000) (hw : 1 < 32) (p : Fin 64) (j : Fin 32000) :
    (sitofp .f32 (extui 32 (cmpi .eq (iota .tc S64x32000 32 [1] hi)
        (broadcastTo S64x32000 (shapeCast S64x1 x1 hs) hb)) hw) : FVec Ideal S64x32000 .f32) (ix2 p j)
      = if j.val = (x1 (ix2 p (0 : Fin 1))).toNat then 1 else 0 := by
  have h1 : iota .tc S64x32000 32 [1] hi (ix2 p j) = BitVec.ofNat 32 j.val :=
    iota_single_apply .tc S64x32000 32 1 hi (ix2 p j)
  have h2 : broadcastTo S64x32000 (shapeCast S64x1 x1 hs) hb (ix2 p j) = x1 (ix2 p (0 : Fin 1)) := by
    rw [shapeCast_self]; exact col_apply x1 hb p j
  show FloatOps.sitofp (F := Ideal) .f32 ((IntOp.cmpi .eq (iota .tc S64x32000 32 [1] hi (ix2 p j))
      (broadcastTo S64x32000 (shapeCast S64x1 x1 hs) hb (ix2 p j))).setWidth 32) = _
  rw [h1, h2]
  exact bit_value j _

/-- The product of a logit with `1 + 3 · mask` is the logit times its factor. -/
theorem scaled_apply (x0 m : FVec Ideal S64x32000 .f32) (p : Fin 64) (k : ℕ)
    (hm : ∀ j : Fin 32000, m (ix2 p j) = if j.val = k then 1 else 0) (j : Fin 32000) :
    mulf x0 (addf (broadcast S64x32000 (FloatOps.ofBits (F := Ideal) .f32 0x3F800000#32))
        (mulf (broadcast S64x32000 (FloatOps.ofBits (F := Ideal) .f32 0x40400000#32)) m)) (ix2 p j)
      = Cert.Ems.scaled (fun j : Fin 32000 => x0 (ix2 p j)) k j := by
  show x0 (ix2 p j) * (Ideal.ofBits .f32 0x3F800000#32 + Ideal.ofBits .f32 0x40400000#32 * m (ix2 p j))
      = x0 (ix2 p j) * Cert.Ems.factor k j
  rw [hm j, Cert.Ems.ofBits_one, Cert.Ems.ofBits_three]
  unfold Cert.Ems.factor
  congr 1
  by_cases h : j.val = k
  · rw [if_pos h, if_pos h, mul_one]; norm_num
  · rw [if_neg h, if_neg h, mul_zero, add_zero]

/-- The sum over the row of logit times mask is the target logit. -/
theorem target_sum (x0 m : FVec Ideal S64x32000 .f32) (p : Fin 64) (k : Fin 32000)
    (hm : ∀ j : Fin 32000, m (ix2 p j) = if j.val = k.val then 1 else 0) :
    ∑ j : Fin 32000, mulf x0 m (ix2 p j) = x0 (ix2 p k) := by
  rw [Finset.sum_eq_single k]
  · show x0 (ix2 p k) * m (ix2 p k) = _
    rw [hm k, if_pos rfl, mul_one]
  · intro j _ hjk
    show x0 (ix2 p j) * m (ix2 p j) = _
    rw [hm j, if_neg (fun h => hjk (Fin.ext h)), mul_zero]
  · intro h; exact absurd (Finset.mem_univ k) h

/-- A logarithm at an index is the logarithm of the element. -/
theorem log_apply {s : Shape} (a : FVec Ideal s .f32) (i : s.Idx) : log a i = Ideal.log (a i) := rfl
/-- An exponential at an index is the exponential of the element. -/
theorem exp_apply {s : Shape} (a : FVec Ideal s .f32) (i : s.Idx) : exp a i = Ideal.exp (a i) := rfl

/-- The kernel body's arithmetic over any mask vector that is the indicator of column `k` on row `p`:
    at `(p, 0)` it is the row's loss. -/
theorem body_row (x0 m : FVec Ideal S64x32000 .f32) (h : S64x32000.Reduces [1] S64) (hφ : FKind.Formats .f32)
    (hadd : (0x00000000#32 : BitVec FTy.f32.bits) = FKind.add.neutral .f32 hφ)
    (hmax : (0xFF800000#32 : BitVec FTy.f32.bits) = FKind.maximumf.neutral .f32 hφ)
    (hc : S64.ShapeCasts S64x1) (hb : S64x1.Broadcasts S64x32000) (p : Fin 64) (k : Fin 32000)
    (hm : ∀ j : Fin 32000, m (ix2 p j) = if j.val = k.val then 1 else 0) :
    subf
      (addf
        (shapeCast S64x1
          (multiReduction (F := Ideal) .maximumf [1] S64
            (mulf x0 (addf (broadcast S64x32000 (FloatOps.ofBits (F := Ideal) .f32 0x3F800000#32))
              (mulf (broadcast S64x32000 (FloatOps.ofBits (F := Ideal) .f32 0x40400000#32)) m)))
            0xFF800000#32 h hφ hmax) hc)
        (log
          (shapeCast S64x1
            (multiReduction (F := Ideal) .add [1] S64
              (exp
                (subf
                  (mulf x0 (addf (broadcast S64x32000 (FloatOps.ofBits (F := Ideal) .f32 0x3F800000#32))
                    (mulf (broadcast S64x32000 (FloatOps.ofBits (F := Ideal) .f32 0x40400000#32)) m)))
                  (broadcastTo S64x32000
                    (shapeCast S64x1
                      (multiReduction (F := Ideal) .maximumf [1] S64
                        (mulf x0 (addf (broadcast S64x32000 (FloatOps.ofBits (F := Ideal) .f32 0x3F800000#32))
                          (mulf (broadcast S64x32000 (FloatOps.ofBits (F := Ideal) .f32 0x40400000#32)) m)))
                        0xFF800000#32 h hφ hmax) hc)
                    hb)))
              0x00000000#32 h hφ hadd) hc)))
      (mulf (broadcast S64x1 (FloatOps.ofBits (F := Ideal) .f32 0x40800000#32))
        (shapeCast S64x1 (multiReduction (F := Ideal) .add [1] S64 (mulf x0 m) 0x00000000#32 h hφ hadd) hc))
      (ix2 p (0 : Fin 1))
    = Cert.Ems.rowLoss (fun j : Fin 32000 => x0 (ix2 p j)) k := by
  -- the scaled logits of the row
  have hM := scaled_apply x0 m p k.val hm
  -- the row's maximum
  have hmaxv : shapeCast S64x1
      (multiReduction (F := Ideal) .maximumf [1] S64
        (mulf x0 (addf (broadcast S64x32000 (FloatOps.ofBits (F := Ideal) .f32 0x3F800000#32))
          (mulf (broadcast S64x32000 (FloatOps.ofBits (F := Ideal) .f32 0x40400000#32)) m)))
        0xFF800000#32 h hφ hmax) hc (ix2 p (0 : Fin 1))
      = Cert.Ems.rowMax (fun j : Fin 32000 => x0 (ix2 p j)) k.val := by
    refine (rowMax_apply _ _ h hφ hmax hc p).trans ?_
    unfold Cert.Ems.rowMax
    rw [Cert.Ems.ofBits_neg_inf]
    exact congrArg (fun f => (Finset.univ : Finset (Fin 32000)).fold max ⊥ f) (funext hM)
  unfold Cert.Ems.rowLoss
  rw [subf_apply, addf_apply, log_apply, mulf_apply, broadcast_apply]
  refine congrArg₂ (· - ·) (congrArg₂ (· + ·) hmaxv (congrArg Ideal.log ?_)) (congrArg₂ (· * ·) Cert.Ems.ofBits_four ?_)
  · -- the sum of the shifted exponentials
    refine (rowSum_apply _ _ h hφ hadd hc p).trans ?_
    unfold Cert.Ems.rowSumExp
    refine Finset.sum_congr rfl fun j _ => ?_
    rw [exp_apply, subf_apply]
    refine congrArg Ideal.exp ?_
    refine congrArg₂ (· - ·) (hM j) ?_
    exact (col_apply _ hb p j).trans hmaxv
  · -- the target logit
    exact (rowSum_apply (mulf x0 m) _ h hφ hadd hc p).trans (target_sum x0 m p k hm)

/-- The kernel's payload at row `p` is the loss of that row of the block against its target column. -/
theorem pay_row (x0 : Vec Ideal Cert.KernelIdeal.S64x32000 .f32) (x1 : Vec Ideal Cert.KernelIdeal.S64x1 .i32) (p : Fin 64)
    (hk : (x1 (ValueIdx.ix2 p (0 : Fin 1))).toNat < 32000) :
    Cert.KernelIdeal.Gen.k0_pay1 (F := Ideal) x0 x1 (ValueIdx.ix2 p (0 : Fin 1))
      = Cert.Ems.rowLoss (fun j : Fin 32000 => x0 (ValueIdx.ix2 p j)) ⟨(x1 (ValueIdx.ix2 p (0 : Fin 1))).toNat, hk⟩ := by
  unfold Cert.KernelIdeal.Gen.k0_pay1
  exact body_row x0 _ _ _ _ _ _ _ p ⟨_, hk⟩ (fun j => mask_apply x1 _ _ _ _ p j)

end Cert.Ems.KernelRow
end
-- ==== Proof.KernelArray.lean ====
/-
  The output array after the pipeline has run, on the extended reals.

  Before the region the targets are clipped to [0, 31999] and reshaped to a column; the region runs 64 points, point
  `t` reading rows `64 t … 64 t + 63` of the logits and of the clipped targets' column and writing the same rows of the
  output column. So the output's row `i` is the row loss (Spec) of the logits' row `i` at the clipped target of row `i`,
  and when every target word is below 32000 the clip changes nothing: the output is `G`, row `i`'s loss at target
  column `targets i` (`final`).

  The steps: the windows' block indices at a point (`idx_facts`); each input block at coordinates as rows of its array
  (`iblk0_apply`, `iblk1_apply`); the targets' column as the host operations leave it, read at a row
  (`V_main_v1`, `V_main_v1_apply`), and the clip on a word in range (`clip_id`); the payload at an index of the block
  from the row's data (`point_row`, over the row lemma of KernelRow); what a point writes back is its block of `G`
  (`flushed_eq`); every row is in the block of point `row / 64` (`mem_blk`, the cover in `final`).
-/
import proofs.«427003_j5763846111461_3_alg».proof.Proof.Gen.KernelIdeal.Frame
import proofs.«427003_j5763846111461_3_alg».proof.Proof.KernelRow
import proofs.«427003_j5763846111461_3_alg».proof.Proof.Spec
import Idealize.ShloMosaic.Lib.Pipeline.Value
import Idealize.ShloMosaic.Lib.ValueIdx
import Idealize.ShloMosaic.Lib.StableHlo.Run
import Idealize.ShloMosaic.Lib.StableHlo.Predicate

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The array the region leaves in the output: row i's loss of the logits' row i at target column (targets i). -/
def G (c : Dev nD) (hr : ∀ i : S4096.Idx, ((m ((c : Thread nD τ).loc main_arg1) : S4096.Idx → BitVec 32) i).toNat < 32000) : S4096x1.Idx → EReal :=
  fun i => Cert.Ems.rowLoss (fun j : Fin 32000 => (m ((c : Thread nD τ).loc main_arg0) : S4096x32000.Idx → EReal) (ix2 (i 0) j))
    ⟨((m ((c : Thread nD τ).loc main_arg1) : S4096.Idx → BitVec 32) (ix1 (i 0))).toNat, hr (ix1 (i 0))⟩

/-- The zero offsets of a whole-block access. -/
theorem hz : (![0, 0] : Fin 2 → Nat) = fun _ => 0 := funext fun a => by fin_cases a <;> rfl

/-- At each of the 64 points t every window's block index is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Input window 0's block at point t, at (p, j), is the logits' row 64 t + p at column j. -/
theorem iblk0_apply (c : Dev nD) (t : Fin cfg0.N) (p : Fin 64) (j : Fin 32000) (hp : 64 * t.val + p.val < 4096) :
    (iblk m c 0 t : Vec Ideal S64x32000 .f32) (ix2 p j)
      = (m ((c : Thread nD τ).loc main_arg0) : S4096x32000.Idx → EReal) (ix2 ⟨64 * t.val + p.val, hp⟩ j) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t 0 * 64 + 1 * p.val = 64 * t.val + p.val; rw [e0]; omega
  | ⟨1, _⟩ => show win0_0.index t 1 * 32000 + 1 * j.val = j.val; rw [e1]; omega

/-- Input window 1's block at point t, at (p, 0), is the clipped targets' column at row 64 t + p. -/
theorem iblk1_apply (c : Dev nD) (t : Fin cfg0.N) (p : Fin 64) (hp : 64 * t.val + p.val < 4096) :
    (iblk m c 1 t : Vec Ideal S64x1 .i32) (ix2 p (0 : Fin 1))
      = (V m c main_v1 : S4096x1.Idx → BitVec 32) (ix2 ⟨64 * t.val + p.val, hp⟩ (0 : Fin 1)) := by
  obtain ⟨-, -, e0, e1, -⟩ := idx_facts t
  unfold iblk
  rw [View.read_apply]
  show V m c main_v1 _ = _
  congr 1
  funext a
  apply Fin.ext
  match a with
  | ⟨0, _⟩ => show win0_1.index t 0 * 64 + 1 * p.val = 64 * t.val + p.val; rw [e0]; omega
  | ⟨1, _⟩ => show win0_1.index t 1 * 1 + 1 * 0 = 0; rw [e1]

/-- The targets' column as the region finds it: the targets clipped to [0, 31999] and reshaped to a column. -/
theorem V_main_v1 (c : Dev nD) : (V m c main_v1 : S4096x1.Idx → BitVec 32)
    = shapeCast S4096x1 (minsi (broadcastInDim S4096 ![] bcast_S_S4096 (constantI S_ 32 31999#32))
        (maxsi (broadcastInDim S4096 ![] bcast_S_S4096 (constantI S_ 32 0#32))
          (m ((c : Thread nD τ).loc main_arg1) : S4096.Idx → BitVec 32))) shapeCasts_S4096_S4096x1 := by
  dsimp only [Gen.V, Gen.V0]
  simp only [Gen.hostOps0, Gen.hostOps0_1, Gen.hostOps0_2, List.flatten_cons, List.flatten_nil, List.append_nil, List.cons_append, List.nil_append]
  after_results
  rfl

/-- Read at row r: the clip of the target word of row r. -/
theorem V_main_v1_apply (c : Dev nD) (r : Fin 4096) :
    (V m c main_v1 : S4096x1.Idx → BitVec 32) (ix2 r (0 : Fin 1))
      = IntOp.minsi 31999#32 (IntOp.maxsi 0#32 ((m ((c : Thread nD τ).loc main_arg1) : S4096.Idx → BitVec 32) (ix1 r))) := by
  rw [V_main_v1]
  refine (shapeCast_apply _ _ (ix2 r (0 : Fin 1)) (ix1 r) ?_).trans ?_
  · rw [Shape.rowMajor_val_two, Shape.rowMajor_val_one]
    show r.val = r.val * 1 + 0
    omega
  · rfl

/-- The clip to [0, 31999] leaves a word below 32000 as it is. -/
theorem clip_id (w : BitVec 32) (hw : w.toNat < 32000) : IntOp.minsi 31999#32 (IntOp.maxsi 0#32 w) = w := by
  have hti : w.toInt = w.toNat := StableHlo.Predicate.toInt_eq_toNat_of_lt (by omega)
  have hmax : IntOp.maxsi 0#32 w = w := by
    unfold IntOp.maxsi
    rw [if_neg]
    simp only [BitVec.slt, hti, show (0#32 : BitVec 32).toInt = 0 from by decide, decide_eq_true_eq]
    omega
  rw [hmax]
  unfold IntOp.minsi
  rw [if_neg]
  simp only [BitVec.slt, hti, show (31999#32 : BitVec 32).toInt = 31999 from by decide, decide_eq_true_eq]
  omega

/-- The payload at an index of the block, from what the two blocks hold on that index's row. -/
theorem point_row (x0 : Vec Ideal S64x32000 .f32) (x1 : Vec Ideal S64x1 .i32) (y : S64x1.Idx)
    (r : Fin 32000 → EReal) (k : Fin 32000)
    (h0 : ∀ j : Fin 32000, x0 (ix2 (y 0) j) = r j) (h1 : (x1 (ix2 (y 0) (0 : Fin 1))).toNat = k.val) :
    k0_pay1 (F := Ideal) x0 x1 y = Cert.Ems.rowLoss r k := by
  have hy : y = ix2 (y 0) (0 : Fin 1) := by
    funext a
    match a with
    | ⟨0, _⟩ => rfl
    | ⟨1, _⟩ =>
      have h : (y 1).val < 1 := (y 1).isLt
      exact Fin.ext (show (y 1).val = 0 by omega)
  obtain rfl : (fun j : Fin 32000 => x0 (ix2 (y 0) j)) = r := funext h0
  have hk : (x1 (ix2 (y 0) (0 : Fin 1))).toNat < 32000 := by rw [h1]; exact k.isLt
  obtain rfl : (⟨(x1 (ix2 (y 0) (0 : Fin 1))).toNat, hk⟩ : Fin 32000) = k := Fin.ext h1
  exact (congrArg (k0_pay1 (F := Ideal) x0 x1) hy).trans (Cert.Ems.KernelRow.pay_row x0 x1 (y 0) hk)

/-- G at an index of row r. -/
theorem G_apply (c : Dev nD) (hr : ∀ i : S4096.Idx, ((m ((c : Thread nD τ).loc main_arg1) : S4096.Idx → BitVec 32) i).toNat < 32000)
    (i : S4096x1.Idx) (r : Fin 4096) (hi : i 0 = r) :
    G m c hr i = Cert.Ems.rowLoss (fun j : Fin 32000 => (m ((c : Thread nD τ).loc main_arg0) : S4096x32000.Idx → EReal) (ix2 r j))
      ⟨((m ((c : Thread nD τ).loc main_arg1) : S4096.Idx → BitVec 32) (ix1 r)).toNat, hr (ix1 r)⟩ := by
  subst hi; rfl

/-- An index of the output is in point t's block iff each coordinate is in the block's range on its axis. -/
theorem mem_blk (t : Fin cfg0.N) (i : S4096x1.Idx) :
    i ∈ ((cfg0.win 2).blk t).view.set ↔ ∀ a : Fin 2, win0_2.index t a * S64x1.size a ≤ (i a).val ∧ (i a).val < win0_2.index t a * S64x1.size a + S64x1.size a := by
  show i ∈ ((View.whole main_v2).slice (win0_2.rect t)).set ↔ _
  rw [View.set_slice_whole, Rect.mem_set_unit]
  exact Iff.rfl

/-- What point t writes back is block t of G. -/
theorem flushed_eq (c : Dev nD) (hr : ∀ i : S4096.Idx, ((m ((c : Thread nD τ).loc main_arg1) : S4096.Idx → BitVec 32) i).toNat < 32000)
    (t : Fin cfg0.N) :
    (dats m 0 c).flushed 2 t = ((cfg0.win 2).blk t).view.read (Elt Ideal) (G m c hr) := by
  show (cfg0.win 2).cut (grid0.coords t) ((dats m 0 c).after 2 t) = _
  rw [after0_2]
  unfold out0_2
  rw [View.canon_unit_zero hz]
  simp only [View.ld_unit_zero (S := S64x32000) hz, View.ld_unit_zero (S := S64x1) hz]
  funext y
  have hN : cfg0.N = 64 := N_0
  obtain ⟨-, -, -, -, e0, e1⟩ := idx_facts t
  have hy0 : ((y : S64x1.Idx) 0).val < 64 := ((y : S64x1.Idx) 0).isLt
  have ht : t.val < 64 := by have := t.isLt; omega
  have hp : 64 * t.val + ((y : S64x1.Idx) 0).val < 4096 := by omega
  have hrow : (((cfg0.win 2).blk t).view.emb y : S4096x1.Idx) 0 = ⟨64 * t.val + ((y : S64x1.Idx) 0).val, hp⟩ :=
    Fin.ext (by
      show win0_2.index t 0 * 64 + 1 * ((y : S64x1.Idx) 0).val = 64 * t.val + ((y : S64x1.Idx) 0).val
      rw [e0]; omega)
  show k0_pay1 (F := Ideal) (iblk m c 0 t) (iblk m c 1 t) y = G m c hr (((cfg0.win 2).blk t).view.emb y)
  refine Eq.trans ?_ (G_apply m c hr (((cfg0.win 2).blk t).view.emb y) ⟨64 * t.val + ((y : S64x1.Idx) 0).val, hp⟩ hrow).symm
  refine point_row (iblk m c 0 t) (iblk m c 1 t) y _ _ (fun j => iblk0_apply m c t ((y : S64x1.Idx) 0) j hp) ?_
  show ((iblk m c 1 t : Vec Ideal S64x1 .i32) (ix2 ((y : S64x1.Idx) 0) (0 : Fin 1))).toNat
    = ((m ((c : Thread nD τ).loc main_arg1) : S4096.Idx → BitVec 32) (ix1 ⟨64 * t.val + ((y : S64x1.Idx) 0).val, hp⟩)).toNat
  rw [iblk1_apply m c t ((y : S64x1.Idx) 0) hp, V_main_v1_apply, clip_id _ (hr _)]

/-- The array after the run: G. -/
theorem final (c : Dev nD) (hr : ∀ i : S4096.Idx, ((m ((c : Thread nD τ).loc main_arg1) : S4096.Idx → BitVec 32) i).toNat < 32000) :
    (dats m 0 c).arrAt 2 cfg0.N = G m c hr :=
  (dats m 0 c).arrAt_eq_of_cover 2 (G m c hr) (fun t _ => flushed_eq m c hr t) fun i => by
    have hN : cfg0.N = 64 := N_0
    have hi0 : ((i : S4096x1.Idx) 0).val < 4096 := ((i : S4096x1.Idx) 0).isLt
    have hi1 : ((i : S4096x1.Idx) 1).val < 1 := ((i : S4096x1.Idx) 1).isLt
    refine ⟨⟨((i : S4096x1.Idx) 0).val / 64, by rw [hN]; omega⟩, flush0_2 _, ?_⟩
    rw [mem_blk]
    obtain ⟨-, -, -, -, e0, e1⟩ := idx_facts ⟨((i : S4096x1.Idx) 0).val / 64, by rw [hN]; omega⟩
    intro a
    match a with
    | ⟨0, _⟩ =>
      show win0_2.index _ 0 * 64 ≤ ((i : S4096x1.Idx) 0).val ∧ ((i : S4096x1.Idx) 0).val < win0_2.index _ 0 * 64 + 64
      rw [e0]; show ((i : S4096x1.Idx) 0).val / 64 * 64 ≤ _ ∧ _ < ((i : S4096x1.Idx) 0).val / 64 * 64 + 64; omega
    | ⟨1, _⟩ =>
      show win0_2.index _ 1 * 1 ≤ ((i : S4096x1.Idx) 1).val ∧ ((i : S4096x1.Idx) 1).val < win0_2.index _ 1 * 1 + 1
      rw [e1]; omega

end Cert.KernelIdeal.Hand
end
-- ==== Proof.KernelRun.lean ====
/-
  The kernel program's run, read at the extended reals.

  The region leaves in the output array, row by row, the row's loss (the array `G`); the host operations after the
  region sum that array from the literal 0 and divide by the literal 4096, which is the program's result; the two
  argument arrays end as they began.
-/
import proofs.«427003_j5763846111461_3_alg».proof.Proof.Gen.KernelIdeal.Frame
import proofs.«427003_j5763846111461_3_alg».proof.Proof.KernelArray
import proofs.«427003_j5763846111461_3_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Idealize.ShloMosaic.StableHlo

variable (m : (ℓ : Loc nD τ sig) → Buf (Elt Ideal) ℓ) (ρ : Dev nD → PrngReg)

/-- What @main returns: the sum of the output array's 4096 row losses from the literal 0, divided by the literal 4096. -/
def result (c : Dev nD) (hr : ∀ i : S4096.Idx, ((m ((c : Thread nD τ).loc main_arg1) : S4096.Idx → BitVec 32) i).toNat < 32000) :
    FVec Ideal S_ .f32 :=
  Host.divf (F := Ideal) (Host.reduceAdd (F := Ideal) (G m c hr) (constant (F := Ideal) S_ .f32 0x00000000#32) reducesTo_S4096x1_S_d0_1 h_S_) (constant (F := Ideal) S_ .f32 0x45800000#32)

/-- The host operations after the region, from the output array the region leaves, compute `result`. -/
theorem tail_eq (c : Dev nD) (hr : ∀ i : S4096.Idx, ((m ((c : Thread nD τ).loc main_arg1) : S4096.Idx → BitVec 32) i).toNat < 32000) :
    Pipeline.afterTail₀ cfgs (dats m) 0 (V0 m) [hostOps1] c main_v4 = result m c hr := by
  unfold Pipeline.afterTail₀
  show StableHlo.after hostOps1 _ (Proc.devRef .tc main_v4) = _
  after_results
  have e := (Pipeline.withArrays_arr spec0 launch0.win.arr_inj c (V0 m c) (fun w => (dats m 0 c).arrAt w (cfgs 0).N) 2).trans (final m c hr)
  rw [show Pipeline.withArrays (cfgs 0).spec c (V0 m c) (fun w => (dats m 0 c).arrAt w (cfgs 0).N) (Proc.devRef .tc main_v2) = G m c hr from e]
  rfl

/-- The kernel program's run, read: the result buffer at `result`, the argument arrays unchanged. -/
theorem run (hr : ∀ (c : Dev nD) (i : S4096.Idx), ((m ((c : Thread nD τ).loc main_arg1) : S4096.Idx → BitVec 32) i).toNat < 32000) :
    θ_run defs (onTc (τ := τ) (main (F := Ideal))) ⟨m, fun _ => 0, ρ⟩ (fun r => ∀ c : Dev nD,
      r.2.mem ((c.tc : Thread nD τ).loc main_v4) = result m c (hr c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v4 (Pipeline.mem_restRefs_of main_v4 (by decide) (by decide))).trans (tail_eq m c (hr c)),
      ((h c).1 0).trans ((((dats m) 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Hand

end
-- ==== Proof.RefRun.lean ====
/-
  The reference program's run: @main is a straight line of 62 host operations, and every weakly fair execution of it
  terminates with the result buffer at the last stage of the staged reading of the program (the `val_…` functions: one
  per operation, each a function of the two argument arrays) and the argument arrays unchanged.

  The line is read in five stretches.  It is cut before each of its two concatenations (the index arrays `[row, column]`
  of the scatter and of the gather), so that a concatenation's operands are buffers the stretch finds, not values it
  computes, and around the log-softmax, which is read as one function `logSoftmax` of the table it is applied to:
  the first stretch leaves the row and column index columns, the all-ones table and the row iota; the second scatters 4
  at the targets and scales the logits; the third is the log-softmax; the fourth prepares the second pair of index
  columns; the fifth gathers the target log-probabilities, negates, sums and divides by the row count.
-/
import proofs.«427003_j5763846111461_3_alg».proof.Proof.RefRead
import Idealize.ShloMosaic.Lib.StableHlo.Run
import Idealize.ShloMosaic.Lib.Pipeline.Frame

noncomputable section

namespace Cert.ReferenceIdeal.RunStaged

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The first stretch: the row iota, the all-ones table, and the two index columns (rows, wrapped targets). -/
abbrev opsA : List (HloOp τ sig (Elt F)) :=
  [ nullary main_v0 (iotaInDim S4096 32 0),
    nullary main_cst (constant S_ .f32 0x3F800000#32),
    unary main_cst main_v1 (broadcastInDim S4096x32000 ![] bcast_S_S4096x32000 : (⟨S_, .f32⟩ : BufTy).Contents (Elt F) → (⟨S4096x32000, .f32⟩ : BufTy).Contents (Elt F)),
    nullary main_c (constantI S_ 32 0#32),
    unary main_c main_v2 (broadcastInDim S4096 ![] bcast_S_S4096 : (⟨S_, .i32⟩ : BufTy).Contents (Elt F) → (⟨S4096, .i32⟩ : BufTy).Contents (Elt F)),
    binary main_v0 main_v2 main_v3 (cmpi .slt : (⟨S4096, .i32⟩ : BufTy).Contents (Elt F) → (⟨S4096, .i32⟩ : BufTy).Contents (Elt F) → (⟨S4096, .i1⟩ : BufTy).Contents (Elt F)),
    nullary main_c_0 (constantI S_ 32 4096#32),
    unary main_c_0 main_v4 (broadcastInDim S4096 ![] bcast_S_S4096 : (⟨S_, .i32⟩ : BufTy).Contents (Elt F) → (⟨S4096, .i32⟩ : BufTy).Contents (Elt F)),
    binary main_v0 main_v4 main_v5 (addi : (⟨S4096, .i32⟩ : BufTy).Contents (Elt F) → (⟨S4096, .i32⟩ : BufTy).Contents (Elt F) → (⟨S4096, .i32⟩ : BufTy).Contents (Elt F)),
    ternary main_v3 main_v5 main_v0 main_v6 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_1 (constantI S_ 32 0#32),
    unary main_c_1 main_v7 (broadcastInDim S4096 ![] bcast_S_S4096 : (⟨S_, .i32⟩ : BufTy).Contents (Elt F) → (⟨S4096, .i32⟩ : BufTy).Contents (Elt F)),
    binary main_arg1 main_v7 main_v8 (cmpi .slt : (⟨S4096, .i32⟩ : BufTy).Contents (Elt F) → (⟨S4096, .i32⟩ : BufTy).Contents (Elt F) → (⟨S4096, .i1⟩ : BufTy).Contents (Elt F)),
    nullary main_c_2 (constantI S_ 32 32000#32),
    unary main_c_2 main_v9 (broadcastInDim S4096 ![] bcast_S_S4096 : (⟨S_, .i32⟩ : BufTy).Contents (Elt F) → (⟨S4096, .i32⟩ : BufTy).Contents (Elt F)),
    binary main_arg1 main_v9 main_v10 (addi : (⟨S4096, .i32⟩ : BufTy).Contents (Elt F) → (⟨S4096, .i32⟩ : BufTy).Contents (Elt F) → (⟨S4096, .i32⟩ : BufTy).Contents (Elt F)),
    ternary main_v8 main_v10 main_arg1 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v6 main_v12 (broadcastInDim S4096x1 ![0] bcast_S4096_S4096x1_0 : (⟨S4096, .i32⟩ : BufTy).Contents (Elt F) → (⟨S4096x1, .i32⟩ : BufTy).Contents (Elt F)),
    unary main_v11 main_v13 (broadcastInDim S4096x1 ![0] bcast_S4096_S4096x1_0 : (⟨S4096, .i32⟩ : BufTy).Contents (Elt F) → (⟨S4096x1, .i32⟩ : BufTy).Contents (Elt F)) ]

/-- The second stretch: the index array, the scatter of 4 into the all-ones table, the scaled logits. -/
abbrev opsB : List (HloOp τ sig (Elt F)) :=
  [ binary main_v12 main_v13 main_v14 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    nullary main_cst_3 (constant S_ .f32 0x40800000#32),
    unary main_cst_3 main_v15 (broadcastInDim S4096 ![] bcast_S_S4096 : (⟨S_, .f32⟩ : BufTy).Contents (Elt F) → (⟨S4096, .f32⟩ : BufTy).Contents (Elt F)),
    ternary main_v1 main_v14 main_v15 main_v16 ((fun x i u => Host.scatter scatter_S4096x32000_S4096x2_S4096_n_01_01_1 (fun _ b => b) x i u) : (⟨S4096x32000, .f32⟩ : BufTy).Contents (Elt F) → (⟨S4096x2, .i32⟩ : BufTy).Contents (Elt F) → (⟨S4096, .f32⟩ : BufTy).Contents (Elt F) → (⟨S4096x32000, .f32⟩ : BufTy).Contents (Elt F)),
    binary main_arg0 main_v16 main_v17 (mulf : (⟨S4096x32000, .f32⟩ : BufTy).Contents (Elt F) → (⟨S4096x32000, .f32⟩ : BufTy).Contents (Elt F) → (⟨S4096x32000, .f32⟩ : BufTy).Contents (Elt F)) ]

/-- The third stretch: the log-softmax of the scaled logits. -/
abbrev opsC : List (HloOp τ sig (Elt F)) :=
  [ TRef.nullary (TRef.of (T := ⟨S_, .f32⟩) main_call0_cst) (constant S_ .f32 0xFF800000#32),
    TRef.binary (TRef.of (T := ⟨S4096x32000, .f32⟩) main_v17) (TRef.of (T := ⟨S_, .f32⟩) main_call0_cst) (TRef.of (T := ⟨S4096, .f32⟩) main_call0_v0) (fun x v => Host.reduce FloatOps.maximumf x v reducesTo_S4096x32000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x32000, .f32⟩) main_call0_v4) (broadcastInDim S4096x32000 ![0, 1] bcast_S4096x1_S4096x32000_0_1),
    TRef.binary (TRef.of (T := ⟨S4096x32000, .f32⟩) main_v17) (TRef.of (T := ⟨S4096x32000, .f32⟩) main_call0_v4) (TRef.of (T := ⟨S4096x32000, .f32⟩) main_call0_v5) subf,
    TRef.unary (TRef.of (T := ⟨S4096x32000, .f32⟩) main_call0_v5) (TRef.of (T := ⟨S4096x32000, .f32⟩) main_call0_v6) Host.exp,
    TRef.nullary (TRef.of (T := ⟨S_, .f32⟩) main_call0_cst_1) (constant S_ .f32 0x00000000#32),
    TRef.binary (TRef.of (T := ⟨S4096x32000, .f32⟩) main_call0_v6) (TRef.of (T := ⟨S_, .f32⟩) main_call0_cst_1) (TRef.of (T := ⟨S4096, .f32⟩) main_call0_v7) (fun x v => Host.reduceAdd x v reducesTo_S4096x32000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x32000, .f32⟩) main_call0_v10) (broadcastInDim S4096x32000 ![0, 1] bcast_S4096x1_S4096x32000_0_1),
    TRef.binary (TRef.of (T := ⟨S4096x32000, .f32⟩) main_call0_v5) (TRef.of (T := ⟨S4096x32000, .f32⟩) main_call0_v10) (TRef.of (T := ⟨S4096x32000, .f32⟩) main_v18) subf ]

/-- The fourth stretch: the second pair of index columns. -/
abbrev opsD : List (HloOp τ sig (Elt F)) :=
  [ nullary main_c_4 (constantI S_ 32 0#32),
    unary main_c_4 main_v19 (broadcastInDim S4096 ![] bcast_S_S4096 : (⟨S_, .i32⟩ : BufTy).Contents (Elt F) → (⟨S4096, .i32⟩ : BufTy).Contents (Elt F)),
    binary main_v0 main_v19 main_v20 (cmpi .slt : (⟨S4096, .i32⟩ : BufTy).Contents (Elt F) → (⟨S4096, .i32⟩ : BufTy).Contents (Elt F) → (⟨S4096, .i1⟩ : BufTy).Contents (Elt F)),
    nullary main_c_5 (constantI S_ 32 4096#32),
    unary main_c_5 main_v21 (broadcastInDim S4096 ![] bcast_S_S4096 : (⟨S_, .i32⟩ : BufTy).Contents (Elt F) → (⟨S4096, .i32⟩ : BufTy).Contents (Elt F)),
    binary main_v0 main_v21 main_v22 (addi : (⟨S4096, .i32⟩ : BufTy).Contents (Elt F) → (⟨S4096, .i32⟩ : BufTy).Contents (Elt F) → (⟨S4096, .i32⟩ : BufTy).Contents (Elt F)),
    ternary main_v20 main_v22 main_v0 main_v23 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_6 (constantI S_ 32 0#32),
    unary main_c_6 main_v24 (broadcastInDim S4096 ![] bcast_S_S4096 : (⟨S_, .i32⟩ : BufTy).Contents (Elt F) → (⟨S4096, .i32⟩ : BufTy).Contents (Elt F)),
    binary main_arg1 main_v24 main_v25 (cmpi .slt : (⟨S4096, .i32⟩ : BufTy).Contents (Elt F) → (⟨S4096, .i32⟩ : BufTy).Contents (Elt F) → (⟨S4096, .i1⟩ : BufTy).Contents (Elt F)),
    nullary main_c_7 (constantI S_ 32 32000#32),
    unary main_c_7 main_v26 (broadcastInDim S4096 ![] bcast_S_S4096 : (⟨S_, .i32⟩ : BufTy).Contents (Elt F) → (⟨S4096, .i32⟩ : BufTy).Contents (Elt F)),
    binary main_arg1 main_v26 main_v27 (addi : (⟨S4096, .i32⟩ : BufTy).Contents (Elt F) → (⟨S4096, .i32⟩ : BufTy).Contents (Elt F) → (⟨S4096, .i32⟩ : BufTy).Contents (Elt F)),
    ternary main_v25 main_v27 main_arg1 main_v28 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v23 main_v29 (broadcastInDim S4096x1 ![0] bcast_S4096_S4096x1_0 : (⟨S4096, .i32⟩ : BufTy).Contents (Elt F) → (⟨S4096x1, .i32⟩ : BufTy).Contents (Elt F)),
    unary main_v28 main_v30 (broadcastInDim S4096x1 ![0] bcast_S4096_S4096x1_0 : (⟨S4096, .i32⟩ : BufTy).Contents (Elt F) → (⟨S4096x1, .i32⟩ : BufTy).Contents (Elt F)) ]

/-- The fifth stretch: the second index array, the gather, the negation, the sum and the division. -/
abbrev opsE : List (HloOp τ sig (Elt F)) :=
  [ binary main_v29 main_v30 main_v31 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v18 main_v31 main_v32 ((fun x i => Host.gather gather_S4096x32000_S4096x2_S4096_n_01_n_n_01_1_11 x i) : (⟨S4096x32000, .f32⟩ : BufTy).Contents (Elt F) → (⟨S4096x2, .i32⟩ : BufTy).Contents (Elt F) → (⟨S4096, .f32⟩ : BufTy).Contents (Elt F)),
    unary main_v32 main_v33 (Host.negf : (⟨S4096, .f32⟩ : BufTy).Contents (Elt F) → (⟨S4096, .f32⟩ : BufTy).Contents (Elt F)),
    nullary main_cst_8 (constant S_ .f32 0x00000000#32),
    binary main_v33 main_cst_8 main_v34 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_9 (constant S_ .f32 0x45800000#32),
    binary main_v34 main_cst_9 main_v35 (Host.divf : (⟨S_, .f32⟩ : BufTy).Contents (Elt F) → (⟨S_, .f32⟩ : BufTy).Contents (Elt F) → (⟨S_, .f32⟩ : BufTy).Contents (Elt F)) ]

/-- @main's 62 operations, in order. -/
abbrev ops : List (HloOp τ sig (Elt F)) :=
  [ nullary main_v0 (iotaInDim S4096 32 0),
    nullary main_cst (constant S_ .f32 0x3F800000#32),
    unary main_cst main_v1 (broadcastInDim S4096x32000 ![] bcast_S_S4096x32000 : (⟨S_, .f32⟩ : BufTy).Contents (Elt F) → (⟨S4096x32000, .f32⟩ : BufTy).Contents (Elt F)),
    nullary main_c (constantI S_ 32 0#32),
    unary main_c main_v2 (broadcastInDim S4096 ![] bcast_S_S4096 : (⟨S_, .i32⟩ : BufTy).Contents (Elt F) → (⟨S4096, .i32⟩ : BufTy).Contents (Elt F)),
    binary main_v0 main_v2 main_v3 (cmpi .slt : (⟨S4096, .i32⟩ : BufTy).Contents (Elt F) → (⟨S4096, .i32⟩ : BufTy).Contents (Elt F) → (⟨S4096, .i1⟩ : BufTy).Contents (Elt F)),
    nullary main_c_0 (constantI S_ 32 4096#32),
    unary main_c_0 main_v4 (broadcastInDim S4096 ![] bcast_S_S4096 : (⟨S_, .i32⟩ : BufTy).Contents (Elt F) → (⟨S4096, .i32⟩ : BufTy).Contents (Elt F)),
    binary main_v0 main_v4 main_v5 (addi : (⟨S4096, .i32⟩ : BufTy).Contents (Elt F) → (⟨S4096, .i32⟩ : BufTy).Contents (Elt F) → (⟨S4096, .i32⟩ : BufTy).Contents (Elt F)),
    ternary main_v3 main_v5 main_v0 main_v6 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_1 (constantI S_ 32 0#32),
    unary main_c_1 main_v7 (broadcastInDim S4096 ![] bcast_S_S4096 : (⟨S_, .i32⟩ : BufTy).Contents (Elt F) → (⟨S4096, .i32⟩ : BufTy).Contents (Elt F)),
    binary main_arg1 main_v7 main_v8 (cmpi .slt : (⟨S4096, .i32⟩ : BufTy).Contents (Elt F) → (⟨S4096, .i32⟩ : BufTy).Contents (Elt F) → (⟨S4096, .i1⟩ : BufTy).Contents (Elt F)),
    nullary main_c_2 (constantI S_ 32 32000#32),
    unary main_c_2 main_v9 (broadcastInDim S4096 ![] bcast_S_S4096 : (⟨S_, .i32⟩ : BufTy).Contents (Elt F) → (⟨S4096, .i32⟩ : BufTy).Contents (Elt F)),
    binary main_arg1 main_v9 main_v10 (addi : (⟨S4096, .i32⟩ : BufTy).Contents (Elt F) → (⟨S4096, .i32⟩ : BufTy).Contents (Elt F) → (⟨S4096, .i32⟩ : BufTy).Contents (Elt F)),
    ternary main_v8 main_v10 main_arg1 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v6 main_v12 (broadcastInDim S4096x1 ![0] bcast_S4096_S4096x1_0 : (⟨S4096, .i32⟩ : BufTy).Contents (Elt F) → (⟨S4096x1, .i32⟩ : BufTy).Contents (Elt F)),
    unary main_v11 main_v13 (broadcastInDim S4096x1 ![0] bcast_S4096_S4096x1_0 : (⟨S4096, .i32⟩ : BufTy).Contents (Elt F) → (⟨S4096x1, .i32⟩ : BufTy).Contents (Elt F)),
    binary main_v12 main_v13 main_v14 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    nullary main_cst_3 (constant S_ .f32 0x40800000#32),
    unary main_cst_3 main_v15 (broadcastInDim S4096 ![] bcast_S_S4096 : (⟨S_, .f32⟩ : BufTy).Contents (Elt F) → (⟨S4096, .f32⟩ : BufTy).Contents (Elt F)),
    ternary main_v1 main_v14 main_v15 main_v16 ((fun x i u => Host.scatter scatter_S4096x32000_S4096x2_S4096_n_01_01_1 (fun _ b => b) x i u) : (⟨S4096x32000, .f32⟩ : BufTy).Contents (Elt F) → (⟨S4096x2, .i32⟩ : BufTy).Contents (Elt F) → (⟨S4096, .f32⟩ : BufTy).Contents (Elt F) → (⟨S4096x32000, .f32⟩ : BufTy).Contents (Elt F)),
    binary main_arg0 main_v16 main_v17 (mulf : (⟨S4096x32000, .f32⟩ : BufTy).Contents (Elt F) → (⟨S4096x32000, .f32⟩ : BufTy).Contents (Elt F) → (⟨S4096x32000, .f32⟩ : BufTy).Contents (Elt F)),
    TRef.nullary (TRef.of (T := ⟨S_, .f32⟩) main_call0_cst) (constant S_ .f32 0xFF800000#32),
    TRef.binary (TRef.of (T := ⟨S4096x32000, .f32⟩) main_v17) (TRef.of (T := ⟨S_, .f32⟩) main_call0_cst) (TRef.of (T := ⟨S4096, .f32⟩) main_call0_v0) (fun x v => Host.reduce FloatOps.maximumf x v reducesTo_S4096x32000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x32000, .f32⟩) main_call0_v4) (broadcastInDim S4096x32000 ![0, 1] bcast_S4096x1_S4096x32000_0_1),
    TRef.binary (TRef.of (T := ⟨S4096x32000, .f32⟩) main_v17) (TRef.of (T := ⟨S4096x32000, .f32⟩) main_call0_v4) (TRef.of (T := ⟨S4096x32000, .f32⟩) main_call0_v5) subf,
    TRef.unary (TRef.of (T := ⟨S4096x32000, .f32⟩) main_call0_v5) (TRef.of (T := ⟨S4096x32000, .f32⟩) main_call0_v6) Host.exp,
    TRef.nullary (TRef.of (T := ⟨S_, .f32⟩) main_call0_cst_1) (constant S_ .f32 0x00000000#32),
    TRef.binary (TRef.of (T := ⟨S4096x32000, .f32⟩) main_call0_v6) (TRef.of (T := ⟨S_, .f32⟩) main_call0_cst_1) (TRef.of (T := ⟨S4096, .f32⟩) main_call0_v7) (fun x v => Host.reduceAdd x v reducesTo_S4096x32000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x32000, .f32⟩) main_call0_v10) (broadcastInDim S4096x32000 ![0, 1] bcast_S4096x1_S4096x32000_0_1),
    TRef.binary (TRef.of (T := ⟨S4096x32000, .f32⟩) main_call0_v5) (TRef.of (T := ⟨S4096x32000, .f32⟩) main_call0_v10) (TRef.of (T := ⟨S4096x32000, .f32⟩) main_v18) subf,
    nullary main_c_4 (constantI S_ 32 0#32),
    unary main_c_4 main_v19 (broadcastInDim S4096 ![] bcast_S_S4096 : (⟨S_, .i32⟩ : BufTy).Contents (Elt F) → (⟨S4096, .i32⟩ : BufTy).Contents (Elt F)),
    binary main_v0 main_v19 main_v20 (cmpi .slt : (⟨S4096, .i32⟩ : BufTy).Contents (Elt F) → (⟨S4096, .i32⟩ : BufTy).Contents (Elt F) → (⟨S4096, .i1⟩ : BufTy).Contents (Elt F)),
    nullary main_c_5 (constantI S_ 32 4096#32),
    unary main_c_5 main_v21 (broadcastInDim S4096 ![] bcast_S_S4096 : (⟨S_, .i32⟩ : BufTy).Contents (Elt F) → (⟨S4096, .i32⟩ : BufTy).Contents (Elt F)),
    binary main_v0 main_v21 main_v22 (addi : (⟨S4096, .i32⟩ : BufTy).Contents (Elt F) → (⟨S4096, .i32⟩ : BufTy).Contents (Elt F) → (⟨S4096, .i32⟩ : BufTy).Contents (Elt F)),
    ternary main_v20 main_v22 main_v0 main_v23 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_6 (constantI S_ 32 0#32),
    unary main_c_6 main_v24 (broadcastInDim S4096 ![] bcast_S_S4096 : (⟨S_, .i32⟩ : BufTy).Contents (Elt F) → (⟨S4096, .i32⟩ : BufTy).Contents (Elt F)),
    binary main_arg1 main_v24 main_v25 (cmpi .slt : (⟨S4096, .i32⟩ : BufTy).Contents (Elt F) → (⟨S4096, .i32⟩ : BufTy).Contents (Elt F) → (⟨S4096, .i1⟩ : BufTy).Contents (Elt F)),
    nullary main_c_7 (constantI S_ 32 32000#32),
    unary main_c_7 main_v26 (broadcastInDim S4096 ![] bcast_S_S4096 : (⟨S_, .i32⟩ : BufTy).Contents (Elt F) → (⟨S4096, .i32⟩ : BufTy).Contents (Elt F)),
    binary main_arg1 main_v26 main_v27 (addi : (⟨S4096, .i32⟩ : BufTy).Contents (Elt F) → (⟨S4096, .i32⟩ : BufTy).Contents (Elt F) → (⟨S4096, .i32⟩ : BufTy).Contents (Elt F)),
    ternary main_v25 main_v27 main_arg1 main_v28 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v23 main_v29 (broadcastInDim S4096x1 ![0] bcast_S4096_S4096x1_0 : (⟨S4096, .i32⟩ : BufTy).Contents (Elt F) → (⟨S4096x1, .i32⟩ : BufTy).Contents (Elt F)),
    unary main_v28 main_v30 (broadcastInDim S4096x1 ![0] bcast_S4096_S4096x1_0 : (⟨S4096, .i32⟩ : BufTy).Contents (Elt F) → (⟨S4096x1, .i32⟩ : BufTy).Contents (Elt F)),
    binary main_v29 main_v30 main_v31 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v18 main_v31 main_v32 ((fun x i => Host.gather gather_S4096x32000_S4096x2_S4096_n_01_n_n_01_1_11 x i) : (⟨S4096x32000, .f32⟩ : BufTy).Contents (Elt F) → (⟨S4096x2, .i32⟩ : BufTy).Contents (Elt F) → (⟨S4096, .f32⟩ : BufTy).Contents (Elt F)),
    unary main_v32 main_v33 (Host.negf : (⟨S4096, .f32⟩ : BufTy).Contents (Elt F) → (⟨S4096, .f32⟩ : BufTy).Contents (Elt F)),
    nullary main_cst_8 (constant S_ .f32 0x00000000#32),
    binary main_v33 main_cst_8 main_v34 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_9 (constant S_ .f32 0x45800000#32),
    binary main_v34 main_cst_9 main_v35 (Host.divf : (⟨S_, .f32⟩ : BufTy).Contents (Elt F) → (⟨S_, .f32⟩ : BufTy).Contents (Elt F) → (⟨S_, .f32⟩ : BufTy).Contents (Elt F)) ]

/-- The line is its five stretches, one after the other. -/
theorem ops_eq : (ops : List (HloOp τ sig (Elt F))) = opsA ++ (opsB ++ (opsC ++ (opsD ++ opsE))) := rfl

/-- The third stretch with each operation of the log-softmax written over its buffers directly: the program spells them
    through typed references, whose transports between a buffer's contents and the value's type are identities. -/
abbrev opsC' : List (HloOp τ sig (Elt F)) :=
  [ nullary main_call0_cst ((constant S_ .f32 0xFF800000#32) : (⟨S_, .f32⟩ : BufTy).Contents (Elt F)),
    binary main_v17 main_call0_cst main_call0_v0 ((fun x v => Host.reduce FloatOps.maximumf x v reducesTo_S4096x32000_S4096_d1 h_S_) : (⟨S4096x32000, .f32⟩ : BufTy).Contents (Elt F) → (⟨S_, .f32⟩ : BufTy).Contents (Elt F) → (⟨S4096, .f32⟩ : BufTy).Contents (Elt F)),
    nullary main_call0_cst_0 ((constant S_ .f32 0xFF800000#32) : (⟨S_, .f32⟩ : BufTy).Contents (Elt F)),
    unary main_call0_cst_0 main_call0_v1 ((broadcastInDim S4096 ![] bcast_S_S4096) : (⟨S_, .f32⟩ : BufTy).Contents (Elt F) → (⟨S4096, .f32⟩ : BufTy).Contents (Elt F)),
    binary main_call0_v1 main_call0_v0 main_call0_v2 (maximumf : (⟨S4096, .f32⟩ : BufTy).Contents (Elt F) → (⟨S4096, .f32⟩ : BufTy).Contents (Elt F) → (⟨S4096, .f32⟩ : BufTy).Contents (Elt F)),
    unary main_call0_v2 main_call0_v3 ((broadcastInDim S4096x1 ![0] bcast_S4096_S4096x1_0) : (⟨S4096, .f32⟩ : BufTy).Contents (Elt F) → (⟨S4096x1, .f32⟩ : BufTy).Contents (Elt F)),
    unary main_call0_v3 main_call0_v4 ((broadcastInDim S4096x32000 ![0, 1] bcast_S4096x1_S4096x32000_0_1) : (⟨S4096x1, .f32⟩ : BufTy).Contents (Elt F) → (⟨S4096x32000, .f32⟩ : BufTy).Contents (Elt F)),
    binary main_v17 main_call0_v4 main_call0_v5 (subf : (⟨S4096x32000, .f32⟩ : BufTy).Contents (Elt F) → (⟨S4096x32000, .f32⟩ : BufTy).Contents (Elt F) → (⟨S4096x32000, .f32⟩ : BufTy).Contents (Elt F)),
    unary main_call0_v5 main_call0_v6 (Host.exp : (⟨S4096x32000, .f32⟩ : BufTy).Contents (Elt F) → (⟨S4096x32000, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S4096x32000_S4096_d1 h_S_) : (⟨S4096x32000, .f32⟩ : BufTy).Contents (Elt F) → (⟨S_, .f32⟩ : BufTy).Contents (Elt F) → (⟨S4096, .f32⟩ : BufTy).Contents (Elt F)),
    unary main_call0_v7 main_call0_v8 ((broadcastInDim S4096x1 ![0] bcast_S4096_S4096x1_0) : (⟨S4096, .f32⟩ : BufTy).Contents (Elt F) → (⟨S4096x1, .f32⟩ : BufTy).Contents (Elt F)),
    unary main_call0_v8 main_call0_v9 (Host.log : (⟨S4096x1, .f32⟩ : BufTy).Contents (Elt F) → (⟨S4096x1, .f32⟩ : BufTy).Contents (Elt F)),
    unary main_call0_v9 main_call0_v10 ((broadcastInDim S4096x32000 ![0, 1] bcast_S4096x1_S4096x32000_0_1) : (⟨S4096x1, .f32⟩ : BufTy).Contents (Elt F) → (⟨S4096x32000, .f32⟩ : BufTy).Contents (Elt F)),
    binary main_call0_v5 main_call0_v10 main_v18 (subf : (⟨S4096x32000, .f32⟩ : BufTy).Contents (Elt F) → (⟨S4096x32000, .f32⟩ : BufTy).Contents (Elt F) → (⟨S4096x32000, .f32⟩ : BufTy).Contents (Elt F)) ]

set_option maxRecDepth 8192 in
theorem opsC_eq : (opsC : List (HloOp τ sig (Elt F))) = opsC' := by
  unfold opsC opsC'
  simp only [TRef.nullary, TRef.unary, TRef.binary, TRef.toBuf, TRef.ofBuf, cast_eq]
  rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., nullary_bufs_sub .., binary_bufs_sub .., nullary_bufs_sub .., binary_bufs_sub ..⟩

/-! ## The first stretch -/

section StretchA
variable (V : Valuation τ sig (Elt F))

theorem sA_v0 : after opsA V (Proc.devRef .tc main_v0) = val_main_v0 (F := F) := by after_results_simp <;> rfl
theorem sA_v1 : after opsA V (Proc.devRef .tc main_v1) = val_main_v1 (F := F) := by after_results_simp <;> rfl
theorem sA_v12 : after opsA V (Proc.devRef .tc main_v12) = val_main_v12 (F := F) := by after_results_simp <;> rfl
theorem sA_v13 : after opsA V (Proc.devRef .tc main_v13) = val_main_v13 (F := F) (V (Proc.devRef .tc main_arg1)) := by after_results_simp <;> rfl
theorem sA_arg0 : after opsA V (Proc.devRef .tc main_arg0) = V (Proc.devRef .tc main_arg0) := by after_results_simp <;> rfl
theorem sA_arg1 : after opsA V (Proc.devRef .tc main_arg1) = V (Proc.devRef .tc main_arg1) := by after_results_simp <;> rfl
end StretchA

/-! ## The second stretch -/

section StretchB
variable (W : Valuation τ sig (Elt F)) (x0 : (⟨S4096x32000, .f32⟩ : BufTy).Contents (Elt F)) (x1 : (⟨S4096, .i32⟩ : BufTy).Contents (Elt F))
  (h1 : W (Proc.devRef .tc main_v1) = val_main_v1 (F := F))
  (h12 : W (Proc.devRef .tc main_v12) = val_main_v12 (F := F)) (h13 : W (Proc.devRef .tc main_v13) = val_main_v13 (F := F) x1)
  (ha0 : W (Proc.devRef .tc main_arg0) = x0)
include h1 h12 h13 ha0

theorem sB_v17 : after opsB W (Proc.devRef .tc main_v17) = val_main_v17 (F := F) x0 x1 := by
  after_results_simp
  rw [h1, h12, h13, ha0]
  rfl
omit h1 h12 h13 ha0 in
theorem sB_v0 : after opsB W (Proc.devRef .tc main_v0) = W (Proc.devRef .tc main_v0) := by after_results_simp <;> rfl
omit h1 h12 h13 ha0 in
theorem sB_arg0 : after opsB W (Proc.devRef .tc main_arg0) = W (Proc.devRef .tc main_arg0) := by after_results_simp <;> rfl
omit h1 h12 h13 ha0 in
theorem sB_arg1 : after opsB W (Proc.devRef .tc main_arg1) = W (Proc.devRef .tc main_arg1) := by after_results_simp <;> rfl
end StretchB

/-! ## The third stretch: the log-softmax -/

/-- The row maxima of a table, each taken once more against -∞, broadcast back over the table's shape. -/
def rowMaxB (y : (⟨S4096x32000, .f32⟩ : BufTy).Contents (Elt F)) : (⟨S4096x32000, .f32⟩ : BufTy).Contents (Elt F) :=
  broadcastInDim S4096x32000 ![0, 1] bcast_S4096x1_S4096x32000_0_1 (broadcastInDim S4096x1 ![0] bcast_S4096_S4096x1_0
    (maximumf (broadcastInDim S4096 ![] bcast_S_S4096 (constant S_ .f32 0xFF800000#32)) (Host.reduce FloatOps.maximumf y (constant S_ .f32 0xFF800000#32) reducesTo_S4096x32000_S4096_d1 h_S_)))

/-- A table less a shift `z`, less the logarithm of the row sums of the exponentials of that difference. -/
def shiftLogSumExp (y z : (⟨S4096x32000, .f32⟩ : BufTy).Contents (Elt F)) : (⟨S4096x32000, .f32⟩ : BufTy).Contents (Elt F) :=
  subf (subf y z) (broadcastInDim S4096x32000 ![0, 1] bcast_S4096x1_S4096x32000_0_1 (Host.log (broadcastInDim S4096x1 ![0] bcast_S4096_S4096x1_0
    (Host.reduceAdd (Host.exp (subf y z)) (constant S_ .f32 0x00000000#32) reducesTo_S4096x32000_S4096_d1 h_S_))))

/-- The log-softmax along the rows of a table, as the program's operations compose it. -/
def logSoftmax (y : (⟨S4096x32000, .f32⟩ : BufTy).Contents (Elt F)) : (⟨S4096x32000, .f32⟩ : BufTy).Contents (Elt F) := shiftLogSumExp y (rowMaxB y)

/-- The staged reading's log-softmax stage is `logSoftmax` of its scaled-logits stage. -/
theorem logSoftmax_v17 (x0 : (⟨S4096x32000, .f32⟩ : BufTy).Contents (Elt F)) (x1 : (⟨S4096, .i32⟩ : BufTy).Contents (Elt F)) : logSoftmax (val_main_v17 (F := F) x0 x1) = val_main_v18 (F := F) x0 x1 := rfl

section StretchC
variable (X : Valuation τ sig (Elt F)) (y : (⟨S4096x32000, .f32⟩ : BufTy).Contents (Elt F)) (h17 : X (Proc.devRef .tc main_v17) = y)
include h17

set_option maxRecDepth 8192 in
theorem sC_v18 : after opsC' X (Proc.devRef .tc main_v18) = logSoftmax y := by
  after_results_simp
  rw [h17]
  rfl
omit h17 in
theorem sC_v0 : after opsC' X (Proc.devRef .tc main_v0) = X (Proc.devRef .tc main_v0) := by after_results_simp <;> rfl
omit h17 in
theorem sC_arg0 : after opsC' X (Proc.devRef .tc main_arg0) = X (Proc.devRef .tc main_arg0) := by after_results_simp <;> rfl
omit h17 in
theorem sC_arg1 : after opsC' X (Proc.devRef .tc main_arg1) = X (Proc.devRef .tc main_arg1) := by after_results_simp <;> rfl
end StretchC

/-! ## The fourth stretch -/

section StretchD
variable (Y : Valuation τ sig (Elt F)) (x1 : (⟨S4096, .i32⟩ : BufTy).Contents (Elt F))
  (h0 : Y (Proc.devRef .tc main_v0) = val_main_v0 (F := F)) (ha1 : Y (Proc.devRef .tc main_arg1) = x1)
include h0 ha1

theorem sD_v29 : after opsD Y (Proc.devRef .tc main_v29) = val_main_v29 (F := F) := by
  after_results_simp
  rw [h0]
  rfl
theorem sD_v30 : after opsD Y (Proc.devRef .tc main_v30) = val_main_v30 (F := F) x1 := by
  after_results_simp
  rw [ha1]
  rfl
omit h0 ha1 in
theorem sD_v18 : after opsD Y (Proc.devRef .tc main_v18) = Y (Proc.devRef .tc main_v18) := by after_results_simp <;> rfl
omit h0 ha1 in
theorem sD_arg0 : after opsD Y (Proc.devRef .tc main_arg0) = Y (Proc.devRef .tc main_arg0) := by after_results_simp <;> rfl
omit h0 ha1 in
theorem sD_arg1 : after opsD Y (Proc.devRef .tc main_arg1) = Y (Proc.devRef .tc main_arg1) := by after_results_simp <;> rfl
end StretchD

/-! ## The fifth stretch -/

section StretchE
variable (Z : Valuation τ sig (Elt F)) (x0 : (⟨S4096x32000, .f32⟩ : BufTy).Contents (Elt F)) (x1 : (⟨S4096, .i32⟩ : BufTy).Contents (Elt F))
  (h18 : Z (Proc.devRef .tc main_v18) = val_main_v18 (F := F) x0 x1)
  (h29 : Z (Proc.devRef .tc main_v29) = val_main_v29 (F := F)) (h30 : Z (Proc.devRef .tc main_v30) = val_main_v30 (F := F) x1)
include h18 h29 h30

theorem sE_v35 : after opsE Z (Proc.devRef .tc main_v35) = val_main_v35 (F := F) x0 x1 := by
  after_results_simp
  rw [h18, h29, h30]
  rfl
omit h18 h29 h30 in
theorem sE_arg0 : after opsE Z (Proc.devRef .tc main_arg0) = Z (Proc.devRef .tc main_arg0) := by after_results_simp <;> rfl
omit h18 h29 h30 in
theorem sE_arg1 : after opsE Z (Proc.devRef .tc main_arg1) = Z (Proc.devRef .tc main_arg1) := by after_results_simp <;> rfl
end StretchE

/-! ## The run -/

/-- The whole line from contents `V`: the result buffer holds the last stage of the two argument arrays, which are unchanged. -/
theorem after_ops (V : Valuation τ sig (Elt F)) :
    after ops V (Proc.devRef .tc main_v35) = val_main_v35 (F := F) (V (Proc.devRef .tc main_arg0)) (V (Proc.devRef .tc main_arg1))
    ∧ after ops V (Proc.devRef .tc main_arg0) = V (Proc.devRef .tc main_arg0)
    ∧ after ops V (Proc.devRef .tc main_arg1) = V (Proc.devRef .tc main_arg1) := by
  have e : after (ops (F := F)) V = after opsE (after opsD (after opsC' (after opsB (after opsA V)))) := by
    rw [ops_eq, StableHlo.after_append, StableHlo.after_append, StableHlo.after_append, StableHlo.after_append, opsC_eq]
  rw [e]
  -- the argument arrays and the row iota through the stretches
  have a0B : after opsB (after opsA V) (Proc.devRef .tc main_arg0) = V (Proc.devRef .tc main_arg0) := by rw [sB_arg0, sA_arg0]
  have a1B : after opsB (after opsA V) (Proc.devRef .tc main_arg1) = V (Proc.devRef .tc main_arg1) := by rw [sB_arg1, sA_arg1]
  have v0B : after opsB (after opsA V) (Proc.devRef .tc main_v0) = val_main_v0 (F := F) := by rw [sB_v0, sA_v0]
  have a0C : after opsC' (after opsB (after opsA V)) (Proc.devRef .tc main_arg0) = V (Proc.devRef .tc main_arg0) := by rw [sC_arg0, a0B]
  have a1C : after opsC' (after opsB (after opsA V)) (Proc.devRef .tc main_arg1) = V (Proc.devRef .tc main_arg1) := by rw [sC_arg1, a1B]
  have v0C : after opsC' (after opsB (after opsA V)) (Proc.devRef .tc main_v0) = val_main_v0 (F := F) := by rw [sC_v0, v0B]
  have a0D : after opsD (after opsC' (after opsB (after opsA V))) (Proc.devRef .tc main_arg0) = V (Proc.devRef .tc main_arg0) := by rw [sD_arg0, a0C]
  have a1D : after opsD (after opsC' (after opsB (after opsA V))) (Proc.devRef .tc main_arg1) = V (Proc.devRef .tc main_arg1) := by rw [sD_arg1, a1C]
  -- the stages
  have h17 := sB_v17 (after opsA V) (V (Proc.devRef .tc main_arg0)) (V (Proc.devRef .tc main_arg1)) (sA_v1 V) (sA_v12 V) (sA_v13 V) (sA_arg0 V)
  have h18C := (sC_v18 (after opsB (after opsA V)) _ h17).trans (logSoftmax_v17 _ _)
  have h18 : after opsD (after opsC' (after opsB (after opsA V))) (Proc.devRef .tc main_v18) = val_main_v18 (F := F) (V (Proc.devRef .tc main_arg0)) (V (Proc.devRef .tc main_arg1)) := by
    rw [sD_v18, h18C]
  have h29 := sD_v29 (after opsC' (after opsB (after opsA V))) (V (Proc.devRef .tc main_arg1)) v0C a1C
  have h30 := sD_v30 (after opsC' (after opsB (after opsA V))) (V (Proc.devRef .tc main_arg1)) v0C a1C
  refine ⟨sE_v35 _ _ _ h18 h29 h30, ?_, ?_⟩
  · rw [sE_arg0, a0D]
  · rw [sE_arg1, a1D]

/-- On every device, for any float values, from any memory with zero counters: every weakly fair execution of @main
    terminates with the result at the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = val_main_v35 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v35).trans (after_ops (launchContents m c)).1,
      (h c main_arg0).trans (after_ops (launchContents m c)).2.1,
      (h c main_arg1).trans (after_ops (launchContents m c)).2.2⟩)
    (run_seq scopedRefs_eq scopedSems_eq defs main (fun _ => ops) main_eq (fun _ => ops_sub) m ρ)

end Cert.ReferenceIdeal.RunStaged

end
-- ==== Proof.LibScatterSet.lean ====
/-
  Reading a scatter that overwrites with one constant: the element at an index is the constant exactly when
  some update index lands there, and the operand's element otherwise.
-/
import Idealize.ShloMosaic.PureOps.ShapeOps

namespace Idealize.ShloMosaic

open Classical in
/-- A scatter whose body returns the update, with every update the same value `v`, read at an operand index
    `i`: the left fold over the update indices writes `v` at `i` as soon as one update index's result index is
    `i` and never writes anything else there, so the order of the updates does not matter — the result is `v`
    when some update index lands at `i`, and the operand's own element when none does. -/
theorem Host.scatter_set_const {α : Type} {s si u : Shape} {w : Nat} (d : ScatterDims s si u) (x : s.Idx → α)
    (idx : IVec si w) (v : α) (i : s.Idx) :
    Host.scatter d (fun _ b => b) x idx (fun _ => v) i
      = if ∃ j : u.Idx, d.resultIdx? j idx = some i then v else x i := by
  -- every update index is the row-major position of some number below the updates' element count
  have hiff : (∃ j : u.Idx, d.resultIdx? j idx = some i)
      ↔ ∃ n ∈ List.finRange u.numel, d.resultIdx? (u.rowMajor.symm n) idx = some i := by
    constructor
    · rintro ⟨j, h⟩
      exact ⟨u.rowMajor j, List.mem_finRange _, by rw [Equiv.symm_apply_apply]; exact h⟩
    · rintro ⟨n, _, h⟩; exact ⟨_, h⟩
  simp only [hiff]
  unfold Host.scatter
  -- the statement for the fold over any list of update positions, from any accumulator
  generalize List.finRange u.numel = l
  induction l generalizing x with
  | nil => simp
  | cons n l ih =>
    rw [List.foldl_cons, ih]
    by_cases hl : ∃ m ∈ l, d.resultIdx? (u.rowMajor.symm m) idx = some i
    · have hnl : ∃ m ∈ n :: l, d.resultIdx? (u.rowMajor.symm m) idx = some i := by
        obtain ⟨m, hm, h⟩ := hl
        exact ⟨m, List.mem_cons_of_mem _ hm, h⟩
      rw [if_pos hl, if_pos hnl]
    · rw [if_neg hl]
      cases hn : d.resultIdx? (u.rowMajor.symm n) idx with
      | none =>
        have hnl : ¬ ∃ m ∈ n :: l, d.resultIdx? (u.rowMajor.symm m) idx = some i := by
          rintro ⟨m, hm, h⟩
          rcases List.mem_cons.1 hm with rfl | hm
          · rw [hn] at h; cases h
          · exact hl ⟨m, hm, h⟩
        rw [if_neg hnl]
      | some i₀ =>
        by_cases hi : i = i₀
        · have hnl : ∃ m ∈ n :: l, d.resultIdx? (u.rowMajor.symm m) idx = some i :=
            ⟨n, List.mem_cons_self, by rw [hn, hi]⟩
          rw [if_pos hnl]
          simp only [hi, if_true]
        · have hnl : ¬ ∃ m ∈ n :: l, d.resultIdx? (u.rowMajor.symm m) idx = some i := by
            rintro ⟨m, hm, h⟩
            rcases List.mem_cons.1 hm with rfl | hm
            · rw [hn] at h; exact hi (Option.some.inj h).symm
            · exact hl ⟨m, hm, h⟩
          rw [if_neg hnl]
          simp only [if_neg hi]

end Idealize.ShloMosaic
-- ==== Proof.LibPointIndex.lean ====
/-
  Point indexing of a rank-2 table with N rows and C columns, read at an index.

  An index array of shape [N, 2] holds, for every row r, a pair (row word, column word). It is built as two [N, 1]
  columns laid side by side, so its element (r, 0) is the first column's element (r, 0) and its element (r, 1) the second
  column's. A point scatter with these indices writes ONE element per update: update r lands at (row word r, column word r).
  A point gather with these indices reads ONE element per result position: position r reads the table at
  (row word r, column word r), each word clamped into its axis. When the row word of r is r itself and the column word
  of r is a number col r below C, update r lands at (r, col r) and position r reads (r, col r): the scatter of a constant
  v is "v where the column is col of the row, the operand elsewhere", and the gather is "the table at (r, col r)".
-/
import Idealize.ShloMosaic.Lib.ValueIdx
import Idealize.ShloMosaic.PureOps.ShapeOps
import proofs.«427003_j5763846111461_3_alg».proof.Proof.LibScatterSet

namespace Cert.Lib.PointIndex

open Idealize.ShloMosaic Idealize.ShloMosaic.ValueIdx

/-! ## The index array: two columns side by side -/

/-- Two [N, 1] columns laid side by side along axis 1: column 0 of the result is the first column. (The pieces have
    widths 1 and 1, so position 0 along the axis falls in the first piece at its position 0; the row coordinate is kept.) -/
theorem concat_col0 {α : Type} {N : Nat} (a b : (⟨2, ![N, 1]⟩ : Shape).Idx → α)
    (h : Shape.Concatenates [(⟨2, ![N, 1]⟩ : Shape), ⟨2, ![N, 1]⟩] ⟨2, ![N, 2]⟩ 1) (i : Fin N) :
    concatenate ⟨2, ![N, 2]⟩ 1 [⟨⟨2, ![N, 1]⟩, a⟩, ⟨⟨2, ![N, 1]⟩, b⟩] h (ix2 i (0 : Fin 2)) = a (ix2 i (0 : Fin 1)) := by
  show a _ = a _
  congr 1
  funext c
  match c with
  | ⟨0, _⟩ => rfl
  | ⟨1, _⟩ => rfl

/-- Two [N, 1] columns laid side by side along axis 1: column 1 of the result is the second column. (Position 1 along
    the axis is past the first piece's width 1, so it falls in the second piece at position 1 − 1 = 0.) -/
theorem concat_col1 {α : Type} {N : Nat} (a b : (⟨2, ![N, 1]⟩ : Shape).Idx → α)
    (h : Shape.Concatenates [(⟨2, ![N, 1]⟩ : Shape), ⟨2, ![N, 1]⟩] ⟨2, ![N, 2]⟩ 1) (i : Fin N) :
    concatenate ⟨2, ![N, 2]⟩ 1 [⟨⟨2, ![N, 1]⟩, a⟩, ⟨⟨2, ![N, 1]⟩, b⟩] h (ix2 i (1 : Fin 2)) = b (ix2 i (0 : Fin 1)) := by
  show b _ = b _
  congr 1
  funext c
  match c with
  | ⟨0, _⟩ => rfl
  | ⟨1, _⟩ => rfl

/-! ## The dimension numbers of the point scatter and the point gather -/

/-- The point scatter into an [N, C] table from [N, 2] indices and [N] updates: no window axes (every update is one
    element), both operand axes inserted, index component 0 the row and component 1 the column, the index vector along
    axis 1 of the indices. The well-formedness is an argument, so a record with these same fields is this one. -/
abbrev pointScatter {N C : Nat} (wf : ScatterDims.WF ⟨2, ![N, C]⟩ ⟨2, ![N, 2]⟩ ⟨1, ![N]⟩ [] [0, 1] [0, 1] 1) :
    ScatterDims ⟨2, ![N, C]⟩ ⟨2, ![N, 2]⟩ ⟨1, ![N]⟩ :=
  { updateWindowDims := [], insertedWindowDims := [0, 1], scatterDimsToOperandDims := [0, 1], indexVectorDim := 1, wf := wf }

/-- The point gather from an [N, C] table at [N, 2] indices into an [N] result: no offset axes, both operand axes
    collapsed with slice size 1, no batching axes, index component 0 the row and component 1 the column, the index vector
    along axis 1 of the indices. -/
abbrev pointGather {N C : Nat}
    (wf : GatherDims.WF ⟨2, ![N, C]⟩ ⟨2, ![N, 2]⟩ ⟨1, ![N]⟩ [] [0, 1] [] [0, 1] [] 1 ![1, 1]) :
    GatherDims ⟨2, ![N, C]⟩ ⟨2, ![N, 2]⟩ ⟨1, ![N]⟩ :=
  { offsetDims := [], collapsedSliceDims := [0, 1], operandBatchingDims := [], startIndicesBatchingDims := [],
    startIndexMap := [0, 1], indexVectorDim := 1, sliceSizes := ![1, 1], wf := wf }

/-! ## The scatter -/

section Scatter
variable {N C : Nat} (wf : ScatterDims.WF ⟨2, ![N, C]⟩ ⟨2, ![N, 2]⟩ ⟨1, ![N]⟩ [] [0, 1] [0, 1] 1)

/-- Update i reads component 0 of its index at (i, 0) of the index array: the update's one axis is the indices' axis 0,
    and the component goes on the index vector's axis 1. -/
theorem scatter_siIdx0 (i : Fin N) :
    (pointScatter wf).siIdx (ix1 i) ⟨0, Nat.zero_lt_succ 1⟩ = ix2 i (0 : Fin 2) := by
  funext b
  match b with
  | ⟨0, _⟩ => rfl
  | ⟨1, _⟩ => rfl

/-- Update i reads component 1 of its index at (i, 1) of the index array. -/
theorem scatter_siIdx1 (i : Fin N) :
    (pointScatter wf).siIdx (ix1 i) ⟨1, Nat.lt_succ_self 1⟩ = ix2 i (1 : Fin 2) := by
  funext b
  match b with
  | ⟨0, _⟩ => rfl
  | ⟨1, _⟩ => rfl

/-- The start of update i on the row axis is the signed row word of i (component 0 names operand axis 0). -/
theorem scatter_start0 (idx : IVec ⟨2, ![N, 2]⟩ 32) (i : Fin N) :
    (pointScatter wf).start (ix1 i) idx 0 = (idx (ix2 i (0 : Fin 2))).toInt := by
  unfold ScatterDims.start
  rw [dif_pos (show (0 : Fin 2) ∈ [(0 : Fin 2), 1] from List.mem_cons_self)]
  exact congrArg (fun k => (idx k).toInt) (scatter_siIdx0 wf i)

/-- The start of update i on the column axis is the signed column word of i (component 1 names operand axis 1). -/
theorem scatter_start1 (idx : IVec ⟨2, ![N, 2]⟩ 32) (i : Fin N) :
    (pointScatter wf).start (ix1 i) idx 1 = (idx (ix2 i (1 : Fin 2))).toInt := by
  unfold ScatterDims.start
  rw [dif_pos (show (1 : Fin 2) ∈ [(0 : Fin 2), 1] from List.mem_cons_of_mem _ List.mem_cons_self)]
  exact congrArg (fun k => (idx k).toInt) (scatter_siIdx1 wf i)

/-- Both operand axes are inserted, so no axis carries a window coordinate. -/
theorem scatter_window (u : (⟨1, ![N]⟩ : Shape).Idx) (a : Fin 2) : (pointScatter wf).window u a = 0 := by
  unfold ScatterDims.window
  rw [dif_neg]
  show a ∉ (List.finRange 2).filter (fun x => x ∉ [(0 : Fin 2), 1])
  revert a
  decide

/-- Update i lands at (i, col i): its row word is i < N and its column word is col i < C, both inside the table, and
    there is no window coordinate to add. -/
theorem scatter_resultIdx (idx : IVec ⟨2, ![N, 2]⟩ 32) (col : Fin N → ℕ)
    (hrow : ∀ i : Fin N, (idx (ix2 i (0 : Fin 2))).toInt = (i.val : ℤ))
    (hcol : ∀ i : Fin N, (idx (ix2 i (1 : Fin 2))).toInt = (col i : ℤ)) (hlt : ∀ i, col i < C) (i : Fin N) :
    (pointScatter wf).resultIdx? (ix1 i) idx = some (ix2 i ⟨col i, hlt i⟩) := by
  have h0 : (pointScatter wf).start (ix1 i) idx 0 + (pointScatter wf).window (ix1 i) 0 = (i.val : ℤ) := by
    rw [scatter_start0, scatter_window, hrow]; simp
  have h1 : (pointScatter wf).start (ix1 i) idx 1 + (pointScatter wf).window (ix1 i) 1 = (col i : ℤ) := by
    rw [scatter_start1, scatter_window, hcol]; simp
  have hin : ∀ a, 0 ≤ (pointScatter wf).start (ix1 i) idx a + (pointScatter wf).window (ix1 i) a ∧
      (pointScatter wf).start (ix1 i) idx a + (pointScatter wf).window (ix1 i) a < (⟨2, ![N, C]⟩ : Shape).size a := by
    intro a
    match a with
    | ⟨0, _⟩ =>
      have := i.isLt
      show 0 ≤ (pointScatter wf).start (ix1 i) idx 0 + (pointScatter wf).window (ix1 i) 0 ∧
        (pointScatter wf).start (ix1 i) idx 0 + (pointScatter wf).window (ix1 i) 0 < (N : ℤ)
      rw [h0]; omega
    | ⟨1, _⟩ =>
      have := hlt i
      show 0 ≤ (pointScatter wf).start (ix1 i) idx 1 + (pointScatter wf).window (ix1 i) 1 ∧
        (pointScatter wf).start (ix1 i) idx 1 + (pointScatter wf).window (ix1 i) 1 < (C : ℤ)
      rw [h1]; omega
  unfold ScatterDims.resultIdx?
  rw [dif_pos hin]
  congr 1
  funext a
  apply Fin.ext
  match a with
  | ⟨0, _⟩ =>
    show ((pointScatter wf).start (ix1 i) idx 0 + (pointScatter wf).window (ix1 i) 0).toNat = i.val
    rw [h0]; simp
  | ⟨1, _⟩ =>
    show ((pointScatter wf).start (ix1 i) idx 1 + (pointScatter wf).window (ix1 i) 1).toNat = col i
    rw [h1]; simp

/-- The scatter of one constant v, one element per row, read at (i, j): some update lands at (i, j) exactly when
    j = col i (update i' lands at (i', col i'), so it must be update i), hence v in the column the row's index word
    names and the operand's element elsewhere. -/
theorem scatter_point_apply {α : Type} (x : (⟨2, ![N, C]⟩ : Shape).Idx → α) (idx : IVec ⟨2, ![N, 2]⟩ 32) (v : α)
    (col : Fin N → ℕ)
    (hrow : ∀ i : Fin N, (idx (ix2 i (0 : Fin 2))).toInt = (i.val : ℤ))
    (hcol : ∀ i : Fin N, (idx (ix2 i (1 : Fin 2))).toInt = (col i : ℤ)) (hlt : ∀ i, col i < C)
    (i : Fin N) (j : Fin C) :
    Host.scatter (pointScatter wf) (fun _ b => b) x idx (fun _ => v) (ix2 i j)
      = if j.val = col i then v else x (ix2 i j) := by
  rw [Host.scatter_set_const]
  have hiff : (∃ u : (⟨1, ![N]⟩ : Shape).Idx, (pointScatter wf).resultIdx? u idx = some (ix2 i j)) ↔ j.val = col i := by
    constructor
    · rintro ⟨u, hu⟩
      obtain ⟨k, rfl⟩ : ∃ k : Fin N, u = ix1 k := ⟨u 0, eq_ix1 (n := N) u⟩
      rw [scatter_resultIdx wf idx col hrow hcol hlt] at hu
      have he := Option.some.inj hu
      have e0 : k = i := congrFun he 0
      have e1 : (⟨col k, hlt k⟩ : Fin C) = j := congrFun he 1
      rw [← e1, e0]
    · intro hj
      refine ⟨ix1 i, ?_⟩
      rw [scatter_resultIdx wf idx col hrow hcol hlt]
      have : (⟨col i, hlt i⟩ : Fin C) = j := Fin.ext hj.symm
      rw [this]
  by_cases hj : j.val = col i
  · rw [if_pos hj, if_pos (hiff.2 hj)]
  · rw [if_neg hj, if_neg (fun h => hj (hiff.1 h))]

/-- The same scatter read at any index p of the table: v when p's column is the one p's row names. -/
theorem scatter_point_apply_idx {α : Type} (x : (⟨2, ![N, C]⟩ : Shape).Idx → α) (idx : IVec ⟨2, ![N, 2]⟩ 32) (v : α)
    (col : Fin N → ℕ)
    (hrow : ∀ i : Fin N, (idx (ix2 i (0 : Fin 2))).toInt = (i.val : ℤ))
    (hcol : ∀ i : Fin N, (idx (ix2 i (1 : Fin 2))).toInt = (col i : ℤ)) (hlt : ∀ i, col i < C)
    (p : (⟨2, ![N, C]⟩ : Shape).Idx) :
    Host.scatter (pointScatter wf) (fun _ b => b) x idx (fun _ => v) p
      = if (p 1).val = col (p 0) then v else x p := by
  obtain ⟨a, b, rfl⟩ : ∃ (a : Fin N) (b : Fin C), p = ix2 a b := ⟨p 0, p 1, eq_ix2 (n0 := N) (n1 := C) p⟩
  exact scatter_point_apply wf x idx v col hrow hcol hlt a b

end Scatter

/-! ## The gather -/

section Gather
variable {N C : Nat} (wf : GatherDims.WF ⟨2, ![N, C]⟩ ⟨2, ![N, 2]⟩ ⟨1, ![N]⟩ [] [0, 1] [] [0, 1] [] 1 ![1, 1])

/-- Result position i reads component 0 of its start index at (i, 0) of the index array: the result's one axis is a
    batch axis reading the indices' axis 0, and the component goes on the index vector's axis 1. -/
theorem gather_siIdx0 (i : Fin N) :
    (pointGather wf).siIdx (ix1 i) ⟨0, Nat.zero_lt_succ 1⟩ = ix2 i (0 : Fin 2) := by
  funext b
  match b with
  | ⟨0, _⟩ => rfl
  | ⟨1, _⟩ => rfl

/-- Result position i reads component 1 of its start index at (i, 1) of the index array. -/
theorem gather_siIdx1 (i : Fin N) :
    (pointGather wf).siIdx (ix1 i) ⟨1, Nat.lt_succ_self 1⟩ = ix2 i (1 : Fin 2) := by
  funext b
  match b with
  | ⟨0, _⟩ => rfl
  | ⟨1, _⟩ => rfl

/-- The start of position i's slice on the row axis: the row word of i read signed, clamped to [0, N − 1] (the slice
    has size 1). -/
theorem gather_start0 (idx : IVec ⟨2, ![N, 2]⟩ 32) (i : Fin N) :
    (pointGather wf).start (ix1 i) idx 0 = min (idx (ix2 i (0 : Fin 2))).toInt.toNat (N - 1) := by
  unfold GatherDims.start
  rw [dif_pos (show (0 : Fin 2) ∈ [(0 : Fin 2), 1] from List.mem_cons_self)]
  exact congrArg (fun k => min (idx k).toInt.toNat (N - 1)) (gather_siIdx0 wf i)

/-- The start of position i's slice on the column axis: the column word of i read signed, clamped to [0, C − 1]. -/
theorem gather_start1 (idx : IVec ⟨2, ![N, 2]⟩ 32) (i : Fin N) :
    (pointGather wf).start (ix1 i) idx 1 = min (idx (ix2 i (1 : Fin 2))).toInt.toNat (C - 1) := by
  unfold GatherDims.start
  rw [dif_pos (show (1 : Fin 2) ∈ [(0 : Fin 2), 1] from List.mem_cons_of_mem _ List.mem_cons_self)]
  exact congrArg (fun k => min (idx k).toInt.toNat (C - 1)) (gather_siIdx1 wf i)

/-- Both operand axes are collapsed, so no axis carries an offset coordinate. -/
theorem gather_offCoord (u : (⟨1, ![N]⟩ : Shape).Idx) (a : Fin 2) : (pointGather wf).offCoord u a = 0 := by
  apply GatherDims.offCoord_eq_zero
  show a ∉ (List.finRange 2).filter (fun x => x ∉ [(0 : Fin 2), 1] ++ [])
  revert a
  decide

/-- The gather of one element per row, read at row i: the table's element at (i, col i). The row word i ≤ N − 1 and
    the column word col i ≤ C − 1 are inside their axes, so the clamp leaves them; there is no batching and no offset
    coordinate to add. -/
theorem gather_point_apply {α : Type} (y : (⟨2, ![N, C]⟩ : Shape).Idx → α) (idx : IVec ⟨2, ![N, 2]⟩ 32)
    (col : Fin N → ℕ)
    (hrow : ∀ i : Fin N, (idx (ix2 i (0 : Fin 2))).toInt = (i.val : ℤ))
    (hcol : ∀ i : Fin N, (idx (ix2 i (1 : Fin 2))).toInt = (col i : ℤ)) (hlt : ∀ i, col i < C)
    (i : Fin N) :
    Host.gather (pointGather wf) y idx (ix1 i) = y (ix2 i ⟨col i, hlt i⟩) := by
  unfold Host.gather
  congr 1
  funext a
  apply Fin.ext
  match a with
  | ⟨0, _⟩ =>
    show (pointGather wf).start (ix1 i) idx 0 + (pointGather wf).batchCoord (ix1 i) 0
      + (pointGather wf).offCoord (ix1 i) 0 = i.val
    rw [GatherDims.batchCoord_eq_zero _ _ _ List.not_mem_nil, gather_offCoord, gather_start0, hrow]
    have := i.isLt
    simp only [Int.toNat_natCast, Nat.add_zero]
    omega
  | ⟨1, _⟩ =>
    show (pointGather wf).start (ix1 i) idx 1 + (pointGather wf).batchCoord (ix1 i) 1
      + (pointGather wf).offCoord (ix1 i) 1 = col i
    rw [GatherDims.batchCoord_eq_zero _ _ _ List.not_mem_nil, gather_offCoord, gather_start1, hcol]
    have := hlt i
    simp only [Int.toNat_natCast, Nat.add_zero]
    omega

end Gather

end Cert.Lib.PointIndex
-- ==== Proof.RefRows.lean ====
/-
  The reference's value on one row, at the extended reals.

  The reference scales each row's target logit by 4 and every other logit by 1, takes the log-softmax of the scaled
  logits along the row, reads it at the row's target column and negates it. Read one operation at a time:

  * the two index arrays (one for the scatter that builds the scale table, one for the gather that reads the result)
    hold at (i, 0) the row number i and at (i, 1) the target word of row i; both words are below 2³¹, hence not
    negative read signed, so the "add the extent when negative" step keeps them;
  * the scale table is all ones with the constant 4 written at (i, target i): at (i, j) it is 4 when j is the target
    column of row i and 1 otherwise, the factor of the specification;
  * the scaled logits are the logits times that factor;
  * the row maximum is the fold of max from -∞ over the row's scaled logits, and max with -∞ once more changes nothing;
  * the shifted logits are the scaled logits less the row maximum, the row's sum is 0 plus the sum of their
    exponentials, and the log-softmax is the shifted logit less the log of that sum;
  * the gather reads the log-softmax at (i, target i), and the last step negates it.

  No finiteness of the logits is used: only 0 + s = s and max ⊥ a = a.
-/
import proofs.«427003_j5763846111461_3_alg».proof.Proof.RefRead
import proofs.«427003_j5763846111461_3_alg».proof.Proof.LibPointIndex
import proofs.«427003_j5763846111461_3_alg».proof.Proof.Spec
import Idealize.ShloMosaic.Lib.ValueIdx
import Idealize.ShloMosaic.PureOps.Reduce
import Idealize.ShloMosaic.PureOps.Ideal.Laws

noncomputable section

namespace Cert.ReferenceIdeal.Rows

open Cert.ReferenceIdeal Cert.ReferenceIdeal.ReadP Idealize.ShloMosaic Idealize.ShloMosaic.ValueIdx
open Cert.Lib.PointIndex

/-! ## Index words -/

/-- A 32-bit word below 2³¹ read signed is the word read unsigned. -/
theorem toInt_of_small (t : BitVec 32) (h : t.toNat < 2 ^ 31) : t.toInt = (t.toNat : ℤ) := by
  rw [BitVec.toInt_eq_toNat_cond]
  rw [if_pos (by omega)]

/-- A 32-bit word below 2³¹ is not negative, so "if negative add the extent" keeps it. -/
theorem wrap_keep (t c : BitVec 32) (h : t.toNat < 2 ^ 31) :
    Scalar.select (IntOp.cmpi .slt t 0#32) (IntOp.addi t c) t = t := by
  have h0 : IntOp.cmpi .slt t 0#32 = 0#1 := by
    unfold IntOp.cmpi
    have : t.slt 0#32 = false := by
      rw [BitVec.slt, toInt_of_small t h]
      simp
    rw [this]; rfl
  rw [h0, select_zero]

section IndexArrays
variable (x1 : (⟨S4096, .i32⟩ : BufTy).Contents (Elt Ideal))

/-- The row column of the scatter's index array holds the row number. -/
theorem v12_apply (i : Fin 4096) : val_main_v12 (F := Ideal) (ix2 i (0 : Fin 1)) = BitVec.ofNat 32 i.val := by
  rw [val_main_v12_apply]
  have hi : idx_main_v12 (ix2 i (0 : Fin 1)) = ix1 i :=
    funext fun a => Fin.ext (by match a with | ⟨0, _⟩ => rfl)
  rw [hi, val_main_v6_apply, val_main_v3_apply, val_main_v5_apply, val_main_v0_apply, val_main_v2_apply, val_main_c_apply]
  have := i.isLt
  exact wrap_keep _ _ (by rw [BitVec.toNat_ofNat]; show i.val % 2 ^ 32 < 2 ^ 31; omega)

/-- The column column of the scatter's index array holds the target word, when that word is below 2³¹. -/
theorem v13_apply (i : Fin 4096) (h : (x1 (ix1 i)).toNat < 2 ^ 31) :
    val_main_v13 (F := Ideal) x1 (ix2 i (0 : Fin 1)) = x1 (ix1 i) := by
  rw [val_main_v13_apply]
  have hi : idx_main_v13 (ix2 i (0 : Fin 1)) = ix1 i :=
    funext fun a => Fin.ext (by match a with | ⟨0, _⟩ => rfl)
  rw [hi, val_main_v11_apply, val_main_v8_apply, val_main_v10_apply, val_main_v7_apply, val_main_c_1_apply]
  exact wrap_keep _ _ h

end IndexArrays

section IndexArrays2
variable (x1 : (⟨S4096, .i32⟩ : BufTy).Contents (Elt Ideal))

/-- The row column of the gather's index array holds the row number. -/
theorem v29_apply (i : Fin 4096) : val_main_v29 (F := Ideal) (ix2 i (0 : Fin 1)) = BitVec.ofNat 32 i.val := by
  rw [val_main_v29_apply]
  have hi : idx_main_v29 (ix2 i (0 : Fin 1)) = ix1 i :=
    funext fun a => Fin.ext (by match a with | ⟨0, _⟩ => rfl)
  rw [hi, val_main_v23_apply, val_main_v20_apply, val_main_v22_apply, val_main_v0_apply, val_main_v19_apply,
    val_main_c_4_apply]
  have := i.isLt
  exact wrap_keep _ _ (by rw [BitVec.toNat_ofNat]; show i.val % 2 ^ 32 < 2 ^ 31; omega)

/-- The column column of the gather's index array holds the target word, when that word is below 2³¹. -/
theorem v30_apply (i : Fin 4096) (h : (x1 (ix1 i)).toNat < 2 ^ 31) :
    val_main_v30 (F := Ideal) x1 (ix2 i (0 : Fin 1)) = x1 (ix1 i) := by
  rw [val_main_v30_apply]
  have hi : idx_main_v30 (ix2 i (0 : Fin 1)) = ix1 i :=
    funext fun a => Fin.ext (by match a with | ⟨0, _⟩ => rfl)
  rw [hi, val_main_v28_apply, val_main_v25_apply, val_main_v27_apply, val_main_v24_apply, val_main_c_6_apply]
  exact wrap_keep _ _ h

/-- The scatter's index array at (i, 0), read signed: the row number i. -/
theorem v14_row (i : Fin 4096) : (val_main_v14 (F := Ideal) x1 (ix2 i (0 : Fin 2))).toInt = (i.val : ℤ) := by
  unfold val_main_v14
  rw [concat_col0 (N := 4096), v12_apply]
  have := i.isLt
  rw [toInt_of_small _ (by rw [BitVec.toNat_ofNat]; show i.val % 2 ^ 32 < 2 ^ 31; omega), BitVec.toNat_ofNat]
  show ((i.val % 2 ^ 32 : ℕ) : ℤ) = i.val
  rw [Nat.mod_eq_of_lt (by omega)]

/-- The scatter's index array at (i, 1), read signed: the target word of row i, which is below 32000. -/
theorem v14_col (hr : ∀ i : S4096.Idx, (x1 i).toNat < 32000) (i : Fin 4096) :
    (val_main_v14 (F := Ideal) x1 (ix2 i (1 : Fin 2))).toInt = ((x1 (ix1 i)).toNat : ℤ) := by
  have h := hr (ix1 i)
  unfold val_main_v14
  rw [concat_col1 (N := 4096), v13_apply x1 i (by omega), toInt_of_small _ (by omega)]

/-- The gather's index array at (i, 0), read signed: the row number i. -/
theorem v31_row (i : Fin 4096) : (val_main_v31 (F := Ideal) x1 (ix2 i (0 : Fin 2))).toInt = (i.val : ℤ) := by
  unfold val_main_v31
  rw [concat_col0 (N := 4096), v29_apply]
  have := i.isLt
  rw [toInt_of_small _ (by rw [BitVec.toNat_ofNat]; show i.val % 2 ^ 32 < 2 ^ 31; omega), BitVec.toNat_ofNat]
  show ((i.val % 2 ^ 32 : ℕ) : ℤ) = i.val
  rw [Nat.mod_eq_of_lt (by omega)]

/-- The gather's index array at (i, 1), read signed: the target word of row i. -/
theorem v31_col (hr : ∀ i : S4096.Idx, (x1 i).toNat < 32000) (i : Fin 4096) :
    (val_main_v31 (F := Ideal) x1 (ix2 i (1 : Fin 2))).toInt = ((x1 (ix1 i)).toNat : ℤ) := by
  have h := hr (ix1 i)
  unfold val_main_v31
  rw [concat_col1 (N := 4096), v30_apply x1 i (by omega), toInt_of_small _ (by omega)]

end IndexArrays2

section Scale
variable (x0 : (⟨S4096x32000, .f32⟩ : BufTy).Contents (Elt Ideal)) (x1 : (⟨S4096, .i32⟩ : BufTy).Contents (Elt Ideal))

/-- The row of logits i. -/
abbrev row (i : Fin 4096) : Fin 32000 → EReal := fun j => x0 (ix2 i j)

/-- The target column of row i. -/
abbrev tgt (i : Fin 4096) : ℕ := (x1 (ix1 i)).toNat

/-- The scale table: 4 in each row's target column, 1 elsewhere. -/
theorem v16_apply (hr : ∀ i : S4096.Idx, (x1 i).toNat < 32000) (i : Fin 4096) (j : Fin 32000) :
    val_main_v16 (F := Ideal) x1 (ix2 i j) = Cert.Ems.factor (tgt x1 i) j := by
  have h15 : val_main_v15 (F := Ideal)
      = (fun _ => FloatOps.ofBits (F := Ideal) .f32 0x40800000#32 : (⟨S4096, .f32⟩ : BufTy).Contents (Elt Ideal)) := by
    funext u
    rw [val_main_v15_apply, val_main_cst_3_apply]
  have hd : scatter_S4096x32000_S4096x2_S4096_n_01_01_1
      = pointScatter (N := 4096) (C := 32000) Facts₀.scatter_S4096x32000_S4096x2_S4096_n_01_01_1_wf := rfl
  unfold val_main_v16
  rw [h15, hd, scatter_point_apply _ _ _ _ (fun i => tgt x1 i) (v14_row x1) (v14_col x1 hr) (fun i => hr (ix1 i)),
    val_main_v1_apply, val_main_cst_apply]
  unfold Cert.Ems.factor
  rw [Ideal.ofBits_def, Ideal.ofBits_def, Cert.Ems.ofBits_four, Cert.Ems.ofBits_one]

/-- The scaled logits. -/
theorem v17_apply (hr : ∀ i : S4096.Idx, (x1 i).toNat < 32000) (i : Fin 4096) (j : Fin 32000) :
    val_main_v17 (F := Ideal) x0 x1 (ix2 i j) = Cert.Ems.scaled (row x0 i) (tgt x1 i) j := by
  rw [val_main_v17_apply, v16_apply x1 hr, Ideal.mulf_def]
  rfl

end Scale

section Max
variable (x0 : (⟨S4096x32000, .f32⟩ : BufTy).Contents (Elt Ideal)) (x1 : (⟨S4096, .i32⟩ : BufTy).Contents (Elt Ideal))

/-- Reducing the column axis: the reduced index i with column k put back is (i, k). -/
theorem lift_row (h : S4096x32000.Reduces [1] S4096) (i : Fin 4096) (k : Fin 32000) :
    h.lift (ix1 i) k = ix2 i k := by
  funext c
  apply Fin.ext
  match c with
  | ⟨0, _⟩ => rfl
  | ⟨1, _⟩ => rfl

/-- The row maximum: the fold of max from -∞ over the scaled logits of the row (and max with -∞ once more). -/
theorem call0_v2_apply (hr : ∀ i : S4096.Idx, (x1 i).toNat < 32000) (i : Fin 4096) :
    val_main_call0_v2 (F := Ideal) x0 x1 (ix1 i) = Cert.Ems.rowMax (row x0 i) (tgt x1 i) := by
  have hred : S4096x32000.Reduces [1] S4096 := by decide
  have h0 : val_main_call0_v0 (F := Ideal) x0 x1 (ix1 i) = Cert.Ems.rowMax (row x0 i) (tgt x1 i) := by
    unfold val_main_call0_v0
    rw [Host.reduce_eq_fold_single FloatOps.maximumf _ _ Facts₀.reducesTo_S4096x32000_S4096_d1 hred Facts₀.h_S_]
    rw [val_main_call0_cst_apply, Ideal.ofBits_def, Cert.Ems.ofBits_neg_inf]
    have hf : (val_main_v17 (F := Ideal) x0 x1 ∘ hred.lift (ix1 i)) = Cert.Ems.scaled (row x0 i) (tgt x1 i) :=
      funext fun (k : Fin 32000) => by
        show val_main_v17 (F := Ideal) x0 x1 (hred.lift (ix1 i) k) = _
        rw [lift_row hred i k]
        exact v17_apply x0 x1 hr i k
    unfold Cert.Ems.rowMax
    exact congrArg (fun f => Finset.fold max (⊥ : EReal) f (Finset.univ : Finset (Fin 32000))) hf
  rw [val_main_call0_v2_apply, h0, val_main_call0_v1_apply, val_main_call0_cst_0_apply, Ideal.ofBits_def,
    Cert.Ems.ofBits_neg_inf, Ideal.maximumf_def]
  exact max_bot_left _

end Max

section Softmax
variable (x0 : (⟨S4096x32000, .f32⟩ : BufTy).Contents (Elt Ideal)) (x1 : (⟨S4096, .i32⟩ : BufTy).Contents (Elt Ideal))

/-- The shifted logits: the scaled logit less the row's maximum. -/
theorem call0_v5_apply (hr : ∀ i : S4096.Idx, (x1 i).toNat < 32000) (i : Fin 4096) (j : Fin 32000) :
    val_main_call0_v5 (F := Ideal) x0 x1 (ix2 i j)
      = Cert.Ems.scaled (row x0 i) (tgt x1 i) j - Cert.Ems.rowMax (row x0 i) (tgt x1 i) := by
  rw [val_main_call0_v5_apply, v17_apply x0 x1 hr, val_main_call0_v4_apply, val_main_call0_v3_apply]
  have hi : idx_main_call0_v3 (idx_main_call0_v4 (ix2 i j)) = ix1 i :=
    funext fun a => Fin.ext (by match a with | ⟨0, _⟩ => rfl)
  rw [hi, call0_v2_apply x0 x1 hr, Ideal.subf_def]

/-- The row's sum of exponentials of the shifted logits. -/
theorem call0_v7_apply (hr : ∀ i : S4096.Idx, (x1 i).toNat < 32000) (i : Fin 4096) :
    val_main_call0_v7 (F := Ideal) x0 x1 (ix1 i) = Cert.Ems.rowSumExp (row x0 i) (tgt x1 i) := by
  rw [val_main_call0_v7_apply, val_main_call0_cst_1_apply, Ideal.ofBits_def, Ideal.ofBits_zero_f32, zero_add]
  unfold Cert.Ems.rowSumExp
  refine Finset.sum_congr rfl fun k _ => ?_
  have hi : idx_main_call0_v7 (ix1 i) k = ix2 i k :=
    funext fun a => Fin.ext (by match a with | ⟨0, _⟩ => rfl | ⟨1, _⟩ => rfl)
  rw [hi, val_main_call0_v6_apply, call0_v5_apply x0 x1 hr, Ideal.hostUnary_exp_def]

/-- The log-softmax of the scaled logits: the shifted logit less the log of the row's sum of exponentials. -/
theorem v18_apply (hr : ∀ i : S4096.Idx, (x1 i).toNat < 32000) (i : Fin 4096) (j : Fin 32000) :
    val_main_v18 (F := Ideal) x0 x1 (ix2 i j)
      = (Cert.Ems.scaled (row x0 i) (tgt x1 i) j - Cert.Ems.rowMax (row x0 i) (tgt x1 i))
        - Ideal.log (Cert.Ems.rowSumExp (row x0 i) (tgt x1 i)) := by
  rw [val_main_v18_apply, call0_v5_apply x0 x1 hr, val_main_call0_v10_apply, val_main_call0_v9_apply,
    val_main_call0_v8_apply]
  have hi : idx_main_call0_v8 (idx_main_call0_v10 (ix2 i j)) = ix1 i :=
    funext fun a => Fin.ext (by match a with | ⟨0, _⟩ => rfl)
  rw [hi, call0_v7_apply x0 x1 hr, Ideal.hostUnary_log_def, Ideal.subf_def]

/-- THE ROW'S VALUE: minus the log-softmax of the scaled logits at the row's target column. -/
theorem ref_row (x0 : (⟨S4096x32000, .f32⟩ : BufTy).Contents (Elt Ideal)) (x1 : (⟨S4096, .i32⟩ : BufTy).Contents (Elt Ideal))
    (hr : ∀ i : S4096.Idx, (x1 i).toNat < 32000) (i : Fin 4096) :
    val_main_v33 (F := Ideal) x0 x1 (ix1 i)
      = -((Cert.Ems.scaled (fun j : Fin 32000 => x0 (ix2 i j)) (x1 (ix1 i)).toNat ⟨(x1 (ix1 i)).toNat, hr (ix1 i)⟩
            - Cert.Ems.rowMax (fun j : Fin 32000 => x0 (ix2 i j)) (x1 (ix1 i)).toNat)
          - Ideal.log (Cert.Ems.rowSumExp (fun j : Fin 32000 => x0 (ix2 i j)) (x1 (ix1 i)).toNat)) := by
  have hd : gather_S4096x32000_S4096x2_S4096_n_01_n_n_01_1_11
      = pointGather (N := 4096) (C := 32000) Facts₀.gather_S4096x32000_S4096x2_S4096_n_01_n_n_01_1_11_wf := rfl
  rw [val_main_v33_apply]
  unfold val_main_v32
  rw [hd, gather_point_apply _ _ _ (fun i => tgt x1 i) (v31_row x1) (v31_col x1 hr) (fun i => hr (ix1 i)),
    v18_apply x0 x1 hr, Ideal.hostNegf_def, Ideal.negf_def]

end Softmax

end Cert.ReferenceIdeal.Rows

end
-- ==== Proof.Bridge.lean ====
/-
  The two forms of a row's loss agree on finite logits.

  The reference takes the negative of the target's log-probability, `-((4·r k − M) − log S)`, where `M` is the maximum of the
  scaled row and `S` the sum of the exponentials of the scaled logits less `M`; the kernel takes the log-sum-exp less the
  scaled target logit, `(M + log S) − 4·r k`.  On the extended reals the two are equal once every term is a real number:
  a finite row has a real maximum (a maximum of finitely many reals over a non-empty index set), its shifted
  exponentials are positive reals with a positive real sum, whose logarithm is real; the identity is then one of ℝ.
-/
import proofs.«427003_j5763846111461_3_alg».proof.Proof.Spec
import Mathlib.Data.EReal.Operations
import Mathlib.Analysis.SpecialFunctions.Log.Basic

noncomputable section

namespace Cert.Ems

open Idealize.ShloMosaic

/-- A finite sum of real numbers, as extended reals, is the real sum. -/
theorem coe_sum {ι : Type} (s : Finset ι) (f : ι → ℝ) : (∑ j ∈ s, ((f j : ℝ) : EReal)) = ((∑ j ∈ s, f j : ℝ) : EReal) := by
  classical
  induction s using Finset.induction_on with
  | empty => simp
  | insert a s ha ih => rw [Finset.sum_insert ha, Finset.sum_insert ha, ih, EReal.coe_add]

/-- The factor is the real 4 or 1. -/
theorem factor_coe (k : ℕ) (j : Fin 32000) : factor k j = (((if j.val = k then 4 else 1 : ℝ)) : EReal) := by
  unfold factor; split <;> norm_cast

variable (r : Fin 32000 → EReal) (hfin : ∀ j, r j ≠ ⊤ ∧ r j ≠ ⊥)
include hfin

/-- A finite row, scaled, is a row of reals. -/
theorem scaled_real (k : ℕ) : ∃ g : Fin 32000 → ℝ, ∀ j, scaled r k j = ((g j : ℝ) : EReal) := by
  refine ⟨fun j => (r j).toReal * (if j.val = k then 4 else 1), fun j => ?_⟩
  unfold scaled
  rw [factor_coe, EReal.coe_mul, EReal.coe_toReal (hfin j).1 (hfin j).2]

/-- Its maximum is a real number. -/
theorem rowMax_real (k : ℕ) : ∃ M : ℝ, rowMax r k = ((M : ℝ) : EReal) := by
  obtain ⟨g, hg⟩ := scaled_real r hfin k
  have hbot : rowMax r k ≠ ⊥ := by
    have h0 : scaled r k ⟨0, by omega⟩ ≤ rowMax r k :=
      (Finset.le_fold_max _).2 (Or.inr ⟨⟨0, by omega⟩, Finset.mem_univ _, le_refl _⟩)
    intro e
    rw [e, hg] at h0
    exact absurd (le_bot_iff.1 h0) (EReal.coe_ne_bot _)
  have htop : rowMax r k ≠ ⊤ := by
    have : rowMax r k < ⊤ := (Finset.fold_max_lt _).2 ⟨bot_lt_top, fun j _ => by rw [hg]; exact EReal.coe_lt_top _⟩
    exact ne_of_lt this
  exact ⟨(rowMax r k).toReal, (EReal.coe_toReal htop hbot).symm⟩

/-- The sum of the shifted exponentials of a row of reals is a positive real, and its logarithm is real. -/
theorem log_sumExp_real (k : ℕ) (g : Fin 32000 → ℝ) (M : ℝ) (hg : ∀ j, scaled r k j = ((g j : ℝ) : EReal))
    (hM : rowMax r k = ((M : ℝ) : EReal)) :
    Ideal.log (rowSumExp r k) = ((Real.log (∑ j : Fin 32000, Real.exp (g j - M)) : ℝ) : EReal) := by
  have hS : rowSumExp r k = ((∑ j : Fin 32000, Real.exp (g j - M) : ℝ) : EReal) := by
    unfold rowSumExp
    rw [← coe_sum]
    refine Finset.sum_congr rfl fun j _ => ?_
    rw [hg, hM, ← EReal.coe_sub, Ideal.exp_coe]
  have hpos : 0 < ∑ j : Fin 32000, Real.exp (g j - M) :=
    Finset.sum_pos (fun j _ => Real.exp_pos _) ⟨⟨0, by omega⟩, Finset.mem_univ _⟩
  rw [hS, Ideal.log_coe, if_neg (not_le.2 hpos)]

omit hfin in
/-- The identity on the reals, read on the extended reals. -/
theorem real_identity (a M L : ℝ) :
    -(((((a * 4 : ℝ)) : EReal) - ((M : ℝ) : EReal)) - ((L : ℝ) : EReal)) = (((M : ℝ) : EReal) + ((L : ℝ) : EReal)) - (((4 * a : ℝ)) : EReal) := by
  rw [← EReal.coe_sub, ← EReal.coe_sub, ← EReal.coe_neg, ← EReal.coe_add, ← EReal.coe_sub]
  congr 1
  ring

omit hfin in
theorem four_coe : (((4 : ℝ)) : EReal) = 4 := by norm_cast

/-- THE BRIDGE: the negative log-probability of the target is the row's loss. -/
theorem neg_logp_eq_rowLoss (k : Fin 32000) :
    -((scaled r k.val k - rowMax r k.val) - Ideal.log (rowSumExp r k.val)) = rowLoss r k := by
  obtain ⟨g, hg⟩ := scaled_real r hfin k.val
  obtain ⟨M, hM⟩ := rowMax_real r hfin k.val
  have ha : (((r k).toReal : ℝ) : EReal) = r k := EReal.coe_toReal (hfin k).1 (hfin k).2
  have hL := log_sumExp_real r hfin k.val g M hg hM
  have hk : scaled r k.val k = (((r k).toReal * 4 : ℝ) : EReal) := by
    unfold scaled factor
    rw [if_pos rfl, EReal.coe_mul, ha, four_coe]
  have h4 : (4 : EReal) * r k = (((4 : ℝ) * (r k).toReal : ℝ) : EReal) := by
    rw [EReal.coe_mul, ha, four_coe]
  unfold rowLoss
  rw [hL, hM, hk, h4]
  exact real_identity _ _ _

end Cert.Ems

end
-- ==== Proof.Mean.lean ====
/-
  The two programs return the same mean.

  The kernel program sums the 4096 row losses its region wrote (a [4096,1] array) from the literal 0 and divides by the
  literal 4096; the reference sums the 4096 negated target log-probabilities (a [4096] array) from the literal 0 and
  divides by the same literal.  Row by row the two summands are equal on finite logits with in-range targets (the
  bridge), the two index sets are both the rows, so the sums are one sum, and the same quotient of it is taken.
-/
import proofs.«427003_j5763846111461_3_alg».proof.Proof.KernelRun
import proofs.«427003_j5763846111461_3_alg».proof.Proof.RefRows
import proofs.«427003_j5763846111461_3_alg».proof.Proof.Bridge

noncomputable section

open Idealize.ShloMosaic Idealize.ShloMosaic.TcCoe Idealize.SL.Sem Idealize.ShloMosaic.ValueIdx

namespace Cert.Ems.Mean

/-- A rank-1 index is its coordinate. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the index set of a column is the sum over its rows. -/
theorem sum_col {M : Type*} [AddCommMonoid M] {n : Nat} (f : (⟨2, ![n, 1]⟩ : Shape).Idx → M) :
    ∑ i, f i = ∑ a : Fin n, f (ix2 a (0 : Fin 1)) := by
  rw [sum_idx2]
  refine Finset.sum_congr rfl fun a _ => ?_
  rw [Fin.sum_univ_one]

open Cert.KernelIdeal.Hand Cert.ReferenceIdeal.ReadP Cert.ReferenceIdeal.Rows

/-- The kernel program's result, read: the literal 0 plus the sum of the output array's entries, over the literal 4096. -/
theorem kernel_mean (m : (ℓ : Loc Cert.KernelIdeal.nD Cert.KernelIdeal.τ Cert.KernelIdeal.sig) → Buf (Elt Ideal) ℓ) (c : Dev Cert.KernelIdeal.nD)
    (hr : ∀ i : Cert.KernelIdeal.S4096.Idx, ((m ((c : Thread Cert.KernelIdeal.nD Cert.KernelIdeal.τ).loc Cert.KernelIdeal.main_arg1) : Cert.KernelIdeal.S4096.Idx → BitVec 32) i).toNat < 32000) (i : Cert.KernelIdeal.S_.Idx) :
    Cert.KernelIdeal.Hand.result m c hr i
      = FloatOps.hostDivf (F := Ideal) (φ := .f32) ((FloatOps.ofBits (F := Ideal) .f32 0x00000000#32 : EReal) + ∑ q : Cert.KernelIdeal.S4096x1.Idx, G m c hr q)
          (FloatOps.ofBits (F := Ideal) .f32 0x45800000#32) := by
  unfold Cert.KernelIdeal.Hand.result
  show FloatOps.hostDivf (F := Ideal) (Host.reduceAdd (F := Ideal) (G m c hr) (constant (F := Ideal) Cert.KernelIdeal.S_ .f32 0x00000000#32) _ _ i) _ = _
  simp only [Host.reduceAdd, Ideal.hostReduceAdd_def]
  rw [Ideal.hostReduceAdd_total Cert.KernelIdeal.Facts₀.reducesTo_S4096x1_S_d0_1 (fun b => b.elim0) (G m c hr) _ i]
  rfl

/-- THE TWO RESULTS ARE EQUAL: the kernel program's mean of its row losses is the reference's last stage of the same
    argument arrays, when every logit is finite and every target word is below 32000. -/
theorem result_eq (m : (ℓ : Loc Cert.KernelIdeal.nD Cert.KernelIdeal.τ Cert.KernelIdeal.sig) → Buf (Elt Ideal) ℓ) (c : Dev Cert.KernelIdeal.nD)
    (hfin : ∀ i : Cert.KernelIdeal.S4096x32000.Idx, ((m ((c : Thread Cert.KernelIdeal.nD Cert.KernelIdeal.τ).loc Cert.KernelIdeal.main_arg0) : Cert.KernelIdeal.S4096x32000.Idx → EReal) i : EReal) ≠ (⊤ : EReal)
      ∧ ((m ((c : Thread Cert.KernelIdeal.nD Cert.KernelIdeal.τ).loc Cert.KernelIdeal.main_arg0) : Cert.KernelIdeal.S4096x32000.Idx → EReal) i : EReal) ≠ (⊥ : EReal))
    (hr : ∀ i : Cert.KernelIdeal.S4096.Idx, ((m ((c : Thread Cert.KernelIdeal.nD Cert.KernelIdeal.τ).loc Cert.KernelIdeal.main_arg1) : Cert.KernelIdeal.S4096.Idx → BitVec 32) i).toNat < 32000) :
    Cert.KernelIdeal.Hand.result m c hr
      = val_main_v35 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) := by
  funext i
  have hs : ∑ a : Fin 4096, G m c hr (ix2 a (0 : Fin 1))
      = ∑ a : Fin 4096, val_main_v33 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (ix1 a) :=
    Finset.sum_congr rfl fun a _ => by
      rw [ref_row _ _ hr a]
      exact (Cert.Ems.neg_logp_eq_rowLoss _ (fun j => hfin (ix2 a j)) _).symm
  rw [kernel_mean, val_main_v35_apply, val_main_v34_apply, val_main_cst_8_apply, val_main_cst_9_apply, sum_col, sum_idx1, hs]

end Cert.Ems.Mean

end
-- ==== Proof.lean ====
/-
  The certificate of the margin-scaled cross-entropy kernel against its jnp reference.

  Both programs take logits x : f32[4096, 32000] and target classes t : i32[4096] and return one number: the mean over
  the rows i of the cross-entropy of the row x[i, ·] with its target logit multiplied by 4, against the class t[i].
  The reference writes the factor table by a scatter of 4 into a table of ones, multiplies, takes `log_softmax`, gathers
  the target log-probability of each row, negates and averages.  The kernel clips the targets into [0, 31999], and in
  one region over 64 blocks of 64 rows builds the target mask by comparing a column iota with the row's target, scales
  the row by 1 + 3·mask, and stores per row `max + log Σ exp(· − max)` less 4 times the masked sum of the row; the
  host averages the 4096 stored numbers.

  The precondition is: every logit is finite, and every target is a class, 0 ≤ t[i] < 32000.  Outside the class range
  the reference's scatter and gather index out of range (and treat a negative index and an index past the end
  differently), and the kernel's clip picks yet another column; inside it the clip is the identity and both programs
  read column t[i].

  At the extended reals, row by row: the factor 1 + 3·mask is the scatter's 4-or-1; the masked sum is the target logit;
  the two maxima are the same fold of `max` from -∞; so the kernel's row value is
  `(M + log S) − 4·x[i, t[i]]` and the reference's is `−((4·x[i, t[i]] − M) − log S)` with the same M and S, which are
  equal because on finite logits M, S > 0 and log S are real numbers.  The two sums over the rows are then one sum, and
  both programs divide it by the same literal 4096.

  The frames of the kernel and of its idealization are the generated ones; the reference's frame is its run with the
  result dropped; the idealization rewrote nothing, so `preserves` is `True`.
-/
import proofs.«427003_j5763846111461_3_alg».proof.Defs
import proofs.«427003_j5763846111461_3_alg».proof.Proof.Gen.Kernel
import proofs.«427003_j5763846111461_3_alg».proof.Proof.Gen.Kernel.Skeleton
import proofs.«427003_j5763846111461_3_alg».proof.Proof.Gen.Kernel.Launch
import proofs.«427003_j5763846111461_3_alg».proof.Proof.Gen.Kernel.Points
import proofs.«427003_j5763846111461_3_alg».proof.Proof.Gen.Kernel.Frame
import proofs.«427003_j5763846111461_3_alg».proof.Proof.Gen.KernelIdeal
import proofs.«427003_j5763846111461_3_alg».proof.Proof.Gen.KernelIdeal.Skeleton
import proofs.«427003_j5763846111461_3_alg».proof.Proof.Gen.KernelIdeal.Launch
import proofs.«427003_j5763846111461_3_alg».proof.Proof.Gen.KernelIdeal.Points
import proofs.«427003_j5763846111461_3_alg».proof.Proof.Gen.KernelIdeal.Frame
import proofs.«427003_j5763846111461_3_alg».proof.Proof.Gen.ReferenceIdeal
import proofs.«427003_j5763846111461_3_alg».proof.Proof.Gen.Pre_finite_inputs
import proofs.«427003_j5763846111461_3_alg».proof.Proof.PreDecode
import proofs.«427003_j5763846111461_3_alg».proof.Proof.KernelRun
import proofs.«427003_j5763846111461_3_alg».proof.Proof.RefRun
import proofs.«427003_j5763846111461_3_alg».proof.Proof.Mean
import Idealize.ShloMosaic.Adequacy
import Idealize.ShloMosaic.Init

noncomputable section

namespace Cert.Proof

open Idealize.ShloMosaic Idealize.SL.Sem

/-- The kernel program runs and keeps its arguments: the generated frame. -/
theorem frame_kernel : Cert.frame_Kernel := fun m ρ _ => Cert.Kernel.Gen.frame m ρ

/-- Its idealization likewise. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RunStaged.run (F := Ideal) m ρ)

/-- The idealization rewrote no operation. -/
theorem preserves : Cert.preserves_Kernel_KernelIdeal := trivial

/-- From memories agreeing on the arguments, with finite logits and targets in the class range, both idealized programs
    run and return the same mean of the rows' losses. -/
theorem algebraic : Cert.algebraic_KernelIdeal_ReferenceIdeal := by
  intro m ρ m' ρ' hpre hagree
  have hd := fun c : Dev Cert.KernelIdeal.nD => Cert.Ems.PreDecode.decode _ _ (hpre c)
  refine ⟨fun c => Cert.KernelIdeal.Hand.result m c (hd c).2, Cert.KernelIdeal.Hand.run m ρ (fun c => (hd c).2), ?_⟩
  refine (θ_run Cert.ReferenceIdeal.defs _ _).mono (fun _ h c => ⟨(h c).1.trans ?_, (h c).2⟩)
    (Cert.ReferenceIdeal.RunStaged.run (F := Ideal) m' ρ')
  rw [(hagree c).1, (hagree c).2]
  exact (Cert.Ems.Mean.result_eq m c (hd c).1 (hd c).2).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
